-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x64 : Shape := ⟨3, ![2, 50000, 64]⟩
abbrev S2x1600000 : Shape := ⟨2, ![2, 1600000]⟩
abbrev S1600000 : Shape := ⟨1, ![1600000]⟩
abbrev S2x50000 : Shape := ⟨2, ![2, 50000]⟩
abbrev S64x64 : Shape := ⟨2, ![64, 64]⟩
abbrev S64 : Shape := ⟨1, ![64]⟩
abbrev S_ : Shape := ⟨0, ![]⟩

class Facts : Prop where
  bcast_S_S2x50000x64 : S_.BroadcastsInDim S2x50000x64 (![] : Fin 0 → Fin S2x50000x64.rank)
  reducesTo_S2x50000x64_S_d0_1_2 : S2x50000x64.ReducesTo [0, 1, 2] S_
  h_S_ : 0 < S_.numel
  bcast_S_S1600000 : S_.BroadcastsInDim S1600000 (![] : Fin 0 → Fin S1600000.rank)
  reducesTo_S1600000_S_d0 : S1600000.ReducesTo [0] S_
  bcast_S_S2x50000 : S_.BroadcastsInDim S2x50000 (![] : Fin 0 → Fin S2x50000.rank)
  reducesTo_S2x50000_S_d0_1 : S2x50000.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S2x50000x64 .f32) (main_arg1 : IVec S2x1600000 32) (main_arg2 : FVec F S1600000 .f32) (main_arg3 : FVec F S2x50000 .f32) (main_arg4 : FVec F S64x64 .f32) (main_arg5 : FVec F S64x64 .f32) (main_arg6 : FVec F S64 .f32) : IVec S_ 1 :=
  let main_v0 : FVec F S2x50000x64 .f32 := Host.absf main_arg0
  let main_cst : FVec F S_ .f32 := constant S_ .f32 0x7F800000#32
  let main_v1 : FVec F S2x50000x64 .f32 := broadcastInDim S2x50000x64 ![] bcast_S_S2x50000x64 main_cst
  let main_v2 : IVec S2x50000x64 1 := cmpf .olt main_v0 main_v1
  let main_c : IVec S_ 1 := constantI S_ 1 1#1
  let main_v3 : IVec S_ 1 := (fun x v => Host.reduce IntOp.andi x v reducesTo_S2x50000x64_S_d0_1_2 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S2x50000 .f32 := Host.absf main_arg3
  let main_cst_2 : FVec F S_ .f32 := constant S_ .f32 0x7F800000#32
  let main_v10 : FVec F S2x50000 .f32 := broadcastInDim S2x50000 ![] bcast_S_S2x50000 main_cst_2
  let main_v11 : IVec S2x50000 1 := cmpf .olt main_v9 main_v10
  let main_c_3 : IVec S_ 1 := constantI S_ 1 1#1
  let main_v12 : IVec S_ 1 := (fun x v => Host.reduce IntOp.andi x v reducesTo_S2x50000_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_v13 main_v16
-- ==== Kernel.lean ====
abbrev S2x50000x64 : Shape := ⟨3, ![2, 50000, 64]⟩
abbrev S2x1600000 : Shape := ⟨2, ![2, 1600000]⟩
abbrev S1600000 : Shape := ⟨1, ![1600000]⟩
abbrev S2x50000 : Shape := ⟨2, ![2, 50000]⟩
abbrev S64x64 : Shape := ⟨2, ![64, 64]⟩
abbrev S64 : Shape := ⟨1, ![64]⟩
abbrev S1x1600000 : Shape := ⟨2, ![1, 1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1600000x1 : Shape := ⟨2, ![1600000, 1]⟩
abbrev S2x1650000 : Shape := ⟨2, ![2, 1650000]⟩
abbrev S2x1650000x64 : Shape := ⟨3, ![2, 1650000, 64]⟩
abbrev S2x1650688x64 : Shape := ⟨3, ![2, 1650688, 64]⟩
abbrev S2x1650688 : Shape := ⟨2, ![2, 1650688]⟩
abbrev S1650688 : Shape := ⟨1, ![1650688]⟩
abbrev S1x1650688 : Shape := ⟨2, ![1, 1650688]⟩
abbrev S2x4096x64 : Shape := ⟨3, ![2, 4096, 64]⟩
abbrev S2x4096 : Shape := ⟨2, ![2, 4096]⟩
abbrev S1x4096 : Shape := ⟨2, ![1, 4096]⟩
abbrev S4096 : Shape := ⟨1, ![4096]⟩
abbrev S4096x1 : Shape := ⟨2, ![4096, 1]⟩
abbrev S1x4096x64 : Shape := ⟨3, ![1, 4096, 64]⟩
abbrev S4096x64 : Shape := ⟨2, ![4096, 64]⟩
abbrev S1x1x64 : Shape := ⟨3, ![1, 1, 64]⟩

abbrev nBuf : Space → Nat
  | .hbm => 141
  | .vmem => 10
  | .smem => 0
  | _ => 0

abbrev hbmTy0_0 (i : Nat) : BufTy := match i % 128 with
  | 0 => ⟨S2x50000x64, .f32⟩
  | 1 => ⟨S2x1600000, .i32⟩
  | 2 => ⟨S1600000, .f32⟩
  | 3 => ⟨S2x50000, .f32⟩
  | 4 => ⟨S64x64, .f32⟩
  | 5 => ⟨S64x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S50000, .i32⟩
  | 12 => ⟨S1650000, .i32⟩
  | 13 => ⟨S1650000, .i32⟩
  | 14 => ⟨S_, .f32⟩
  | 15 => ⟨S50000, .f32⟩
  | 16 => ⟨S_, .i32⟩
  | 17 => ⟨S1650000, .i32⟩
  | 18 => ⟨S1650000, .i1⟩
  | 19 => ⟨S_, .i32⟩
  | 20 => ⟨S1650000, .i32⟩
  | 21 => ⟨S1650000, .i32⟩
  | 22 => ⟨S1650000, .i32⟩
  | 23 => ⟨S1650000x1, .i32⟩
  | 24 => ⟨S_, .f32⟩
  | 25 => ⟨S1650000, .f32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S1650000, .i32⟩
  | 40 => ⟨S1650000, .i1⟩
  | 41 => ⟨S_, .i32⟩
  | 42 => ⟨S1650000, .i32⟩
  | 43 => ⟨S1650000, .i32⟩
  | 44 => ⟨S1650000, .i32⟩
  | 45 => ⟨S1650000x1, .i32⟩
  | 46 => ⟨S1650000, .f32⟩
  | 47 => ⟨S_, .i32⟩
  | 48 => ⟨S1650000, .i32⟩
  | 49 => ⟨S1650000, .i1⟩
  | 50 => ⟨S_, .i32⟩
  | 51 => ⟨S1650000, .i32⟩
  | 52 => ⟨S1650000, .i32⟩
  | 53 => ⟨S1650000, .i32⟩
  | 54 => ⟨S1650000x1, .i32⟩
  | 55 => ⟨S1650000, .f32⟩
  | 56 => ⟨S1650000, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S2x1600000, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S2x1600000, .f32⟩
  | 75 => ⟨S2x1600000, .f32⟩
  | 76 => ⟨S_, .f32⟩
  | 77 => ⟨S2x1600000, .f32⟩
  | 78 => ⟨S2x1600000, .f32⟩
  | 79 => ⟨S2x1600000, .f32⟩
  | 80 => ⟨S_, .f32⟩
  | 81 => ⟨S2x1600000, .f32⟩
  | 82 => ⟨S2x1600000, .f32⟩
  | 83 => ⟨S_, .f32⟩
  | 84 => ⟨S2x1600000, .f32⟩
  | 85 => ⟨S2x1600000, .f32⟩
  | 86 => ⟨S1x1600000, .f32⟩
  | 87 => ⟨S2x1600000, .f32⟩
  | 88 => ⟨S2x1600000, .f32⟩
  | 89 => ⟨S_, .f32⟩
  | 90 => ⟨S2x1600000, .f32⟩
  | 91 => ⟨S2x1600000, .f32⟩
  | 92 => ⟨S_, .f32⟩
  | 93 => ⟨S1x1600000, .f32⟩
  | 94 => ⟨S1x1600000, .f32⟩
  | 95 => ⟨S2x1600000, .f32⟩
  | 96 => ⟨S2x1600000, .f32⟩
  | 97 => ⟨S2x1600000, .f32⟩
  | 98 => ⟨S_, .f32⟩
  | 99 => ⟨S2x50000, .f32⟩
  | 100 => ⟨S2x1650000, .f32⟩
  | 101 => ⟨S2x50000x64, .bf16⟩
  | 102 => ⟨S_, .i32⟩
  | 103 => ⟨S1650000, .i32⟩
  | 104 => ⟨S1650000, .i1⟩
  | 105 => ⟨S_, .i32⟩
  | 106 => ⟨S1650000, .i32⟩
  | 107 => ⟨S1650000, .i32⟩
  | 108 => ⟨S1650000, .i32⟩
  | 109 => ⟨S1650000x1, .i32⟩
  | 110 => ⟨S2x1650000x64, .bf16⟩
  | 111 => ⟨S_, .i32⟩
  | 112 => ⟨S_, .bf16⟩
  | 113 => ⟨S2x1650688x64, .bf16⟩
  | 114 => ⟨S_, .i32⟩
  | 115 => ⟨S_, .f32⟩
  | 116 => ⟨S2x1650688, .f32⟩
  | 117 => ⟨S_, .i32⟩
  | 118 => ⟨S_, .f32⟩
  | 119 => ⟨S1650688, .f32⟩
  | 120 => ⟨S1x1650688, .f32⟩
  | 121 => ⟨S64x64, .f32⟩
  | 122 => ⟨S64x64, .bf16⟩
  | 123 => ⟨S64x64, .f32⟩
  | 124 => ⟨S64x64, .bf16⟩
  | 125 => ⟨S2x1650688x64, .f32⟩
  | 126 => ⟨S2x1650000x64, .f32⟩
  | 127 => ⟨S_, .f32⟩
  | _ => ⟨S2x50000x64, .f32⟩

abbrev hbmTy0_1 (i : Nat) : BufTy := match i % 128 with
  | 0 => ⟨S2x50000x64, .f32⟩
  | 1 => ⟨S_, .i32⟩
  | 2 => ⟨S1650000, .i32⟩
  | 3 => ⟨S1650000, .i1⟩
  | 4 => ⟨S_, .i32⟩
  | 5 => ⟨S1650000, .i32⟩
  | 6 => ⟨S1650000, .i32⟩
  | 7 => ⟨S1650000, .i32⟩
  | 8 => ⟨S1650000x1, .i32⟩
  | 9 => ⟨S2x50000x64, .f32⟩
  | 10 => ⟨S1x1x64, .f32⟩
  | 11 => ⟨S2x50000x64, .f32⟩
  | 12 => ⟨S2x50000x64, .f32⟩
  | _ => ⟨S2x50000x64, .f32⟩

abbrev hbmTy (i : Nat) : BufTy := match i / 128 with
  | 0 => hbmTy0_0 i
  | 1 => hbmTy0_1 i
  | _ => ⟨S2x50000x64, .f32⟩

abbrev bufTy : (tb : Table) → Fin (tcTables nBuf tb) → BufTy
  | .hbm, ⟨i, _⟩ => hbmTy i
  | .local _ .vmem, ⟨0, _⟩ => ⟨S2x4096x64, .bf16⟩
  | .local _ .vmem, ⟨1, _⟩ => ⟨S2x4096x64, .bf16⟩
  | .local _ .vmem, ⟨2, _⟩ => ⟨S2x4096, .f32⟩
  | .local _ .vmem, ⟨3, _⟩ => ⟨S2x4096, .f32⟩
  | .local _ .vmem, ⟨4, _⟩ => ⟨S1x4096, .f32⟩
  | .local _ .vmem, ⟨5, _⟩ => ⟨S1x4096, .f32⟩
  | .local _ .vmem, ⟨6, _⟩ => ⟨S64x64, .bf16⟩
  | .local _ .vmem, ⟨7, _⟩ => ⟨S64x64, .bf16⟩
  | .local _ .vmem, ⟨8, _⟩ => ⟨S2x4096x64, .f32⟩
  | .local _ .vmem, ⟨9, _⟩ => ⟨S2x4096x64, .f32⟩
  | _, _ => ⟨S2x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_c_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_11 : Ref sig .tc := ⟨.hbm, 66, rfl⟩
abbrev main_v44 : Ref sig .tc := ⟨.hbm, 67, rfl⟩
abbrev main_v45 : Ref sig .tc := ⟨.hbm, 68, rfl⟩
abbrev main_c_12 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_v56 : Ref sig .tc := ⟨.hbm, 82, rfl⟩
abbrev main_cst_15 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_16 : Ref sig .tc := ⟨.hbm, 89, rfl⟩
abbrev main_v62 : Ref sig .tc := ⟨.hbm, 90, rfl⟩
abbrev main_v63 : Ref sig .tc := ⟨.hbm, 91, rfl⟩
abbrev main_cst_17 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_18 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_19 : Ref sig .tc := ⟨.hbm, 102, rfl⟩
abbrev main_v72 : Ref sig .tc := ⟨.hbm, 103, rfl⟩
abbrev main_v73 : Ref sig .tc := ⟨.hbm, 104, rfl⟩
abbrev main_c_20 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_21 : Ref sig .tc := ⟨.hbm, 111, rfl⟩
abbrev main_call1_v0 : Ref sig .tc := ⟨.hbm, 112, rfl⟩
abbrev main_v79 : Ref sig .tc := ⟨.hbm, 113, rfl⟩
abbrev main_c_22 : Ref sig .tc := ⟨.hbm, 114, rfl⟩
abbrev main_call2_v0 : Ref sig .tc := ⟨.hbm, 115, rfl⟩
abbrev main_v80 : Ref sig .tc := ⟨.hbm, 116, rfl⟩
abbrev main_c_23 : Ref sig .tc := ⟨.hbm, 117, rfl⟩
abbrev main_call3_v0 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_24 : Ref sig .tc := ⟨.hbm, 127, rfl⟩
abbrev main_v89 : Ref sig .tc := ⟨.hbm, 128, rfl⟩
abbrev main_c_25 : Ref sig .tc := ⟨.hbm, 129, rfl⟩
abbrev main_v90 : Ref sig .tc := ⟨.hbm, 130, rfl⟩
abbrev main_v91 : Ref sig .tc := ⟨.hbm, 131, rfl⟩
abbrev main_c_26 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![403], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x4096x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S_S1650000 : S_.BroadcastsInDim S1650000 (![] : Fin 0 → Fin S1650000.rank)
  bcast_S1650000_S1650000x1_0 : S1650000.BroadcastsInDim S1650000x1 (![0] : Fin 1 → Fin S1650000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S2x1600000 : S_.BroadcastsInDim S2x1600000 (![] : Fin 0 → Fin S2x1600000.rank)
  bcast_S1600000_S1x1600000_1 : S1600000.BroadcastsInDim S1x1600000 (![1] : Fin 1 → Fin S1x1600000.rank)
  bcast_S1x1600000_S2x1600000_0_1 : S1x1600000.BroadcastsInDim S2x1600000 (![0, 1] : Fin 2 → Fin S2x1600000.rank)
  bcast_S_S1x1600000 : S_.BroadcastsInDim S1x1600000 (![] : Fin 0 → Fin S1x1600000.rank)
  bcast_S_S2x50000 : S_.BroadcastsInDim S2x50000 (![] : Fin 0 → Fin S2x50000.rank)
  concatenates_S2x1600000_S2x50000_S2x1650000_d1 : Shape.Concatenates [S2x1600000, S2x50000] S2x1650000 1
  bitsLt_bf16_f32 : FTy.bits .bf16 < FTy.bits .f32
  pads_S2x1650000x64_S2x1650688x64_000_06880_000 : S2x1650000x64.Pads (![0, 0, 0] : Fin 3 → Nat) ![0, 688, 0] ![0, 0, 0] S2x1650688x64
  h_S_ : 0 < S_.numel
  pads_S2x1650000_S2x1650688_000_06880 : S2x1650000.Pads (![0, 0] : Fin 2 → Nat) ![0, 688] ![0, 0] S2x1650688
  pads_S1650000_S1650688_06880 : S1650000.Pads (![0] : Fin 1 → Nat) ![688] ![0] S1650688
  shapeCasts_S1650688_S1x1650688 : S1650688.ShapeCasts S1x1650688
  transposes_S64x64_S64x64_1_0 : S64x64.Transposes [1, 0] S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x4096_S1x4096_0_0 : ∀ a, (![0, 0] : Fin 2 → Nat) a + S1x4096.size a ≤ S1x4096.size a
  h_S1x4096 : 0 < S1x4096.numel
  shapeCasts_S1x4096_S4096 : S1x4096.ShapeCasts S4096
  shapeCasts_S4096_S4096x1 : S4096.ShapeCasts S4096x1
  inb_S2x4096x64_S1x4096x64_0_0_0 : ∀ a, (![0, 0, 0] : Fin 3 → Nat) a + S1x4096x64.size a ≤ S2x4096x64.size a
  h_S1x4096x64 : 0 < S1x4096x64.numel
  shapeCasts_S1x4096x64_S4096x64 : S1x4096x64.ShapeCasts S4096x64
  inb_S2x4096_S1x4096_0_0 : ∀ a, (![0, 0] : Fin 2 → Nat) a + S1x4096.size a ≤ S2x4096.size a
  broadcasts_S4096x1_S4096x64 : S4096x1.Broadcasts S4096x64
  shapeCasts_S4096x64_S1x4096x64 : S4096x64.ShapeCasts S1x4096x64
  inb_S2x4096x64_S1x4096x64_1_0_0 : ∀ a, (![1, 0, 0] : Fin 3 → Nat) a + S1x4096x64.size a ≤ S2x4096x64.size a
  inb_S2x4096_S1x4096_1_0 : ∀ a, (![1, 0] : Fin 2 → Nat) a + S1x4096.size a ≤ S2x4096.size a
  slices_S2x1650688x64_S2x1650000x64_0_0_0 : S2x1650688x64.Slices ![0, 0, 0] S2x1650000x64
  bcast_S_S2x50000x64 : S_.BroadcastsInDim S2x50000x64 (![] : Fin 0 → Fin S2x50000x64.rank)
  bcast_S64_S1x1x64_2 : S64.BroadcastsInDim S1x1x64 (![2] : Fin 1 → Fin S1x1x64.rank)
  bcast_S1x1x64_S2x50000x64_0_1_2 : S1x1x64.BroadcastsInDim S2x50000x64 (![0, 1, 2] : Fin 3 → Fin S2x50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S2x50000_S1600000x1_S2x1600000_0_1_n_n_1_1_21_wf : GatherDims.WF S2x50000 S1600000x1 S2x1600000 [0] [1] [] [1] [] 1 ![2, 1]
  gather_S2x50000x64_S1650000x1_S2x1650000x64_02_1_n_n_1_1_2164_wf : GatherDims.WF S2x50000x64 S1650000x1 S2x1650000x64 [0, 2] [1] [] [1] [] 1 ![2, 1, 64]
  dot_S4096x64_S64x64_S4096x64_1_0_0_1_n_n_wf : DotDims.WF S4096x64 S64x64 S4096x64 [1] [0] [0] [1] [] []
  scatter_S2x50000x64_S1650000x1_S2x1650000x64_02_1_1_1_wf : ScatterDims.WF S2x50000x64 S1650000x1 S2x1650000x64 [0, 2] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096x64.size a ≤ S2x1650688x64.size a
  hwx0_0 : ∀ i : grid0.Coords, EltTy.bits .bf16 = 32 ∨ (Rect.block (s := S2x1650688x64) S2x4096x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x4096.size a ≤ S2x1650688.size a
  hwx0_1 : ∀ i : grid0.Coords, EltTy.bits .f32 = 32 ∨ (Rect.block (s := S2x1650688) S2x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x1650688.size a
  hwx0_2 : ∀ i : grid0.Coords, EltTy.bits .f32 = 32 ∨ (Rect.block (s := S1x1650688) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x4096x64.size a ≤ S2x1650688x64.size a
  hwx0_5 : ∀ i : grid0.Coords, EltTy.bits .f32 = 32 ∨ (Rect.block (s := S2x1650688x64) S2x4096x64.size (cc0_transform_5 i) (hinb0_5 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S2x50000_S1600000x1_S2x1600000_0_1_n_n_1_1_21 : GatherDims S2x50000 S1600000x1 S2x1600000 where
  offsetDims := [0]
  collapsedSliceDims := [1]
  operandBatchingDims := []
  startIndicesBatchingDims := []
  startIndexMap := [1]
  indexVectorDim := 1
  sliceSizes := ![2, 1]
  wf := gather_S2x50000_S1600000x1_S2x1600000_0_1_n_n_1_1_21_wf
def gather_S2x50000x64_S1650000x1_S2x1650000x64_02_1_n_n_1_1_2164 : GatherDims S2x50000x64 S1650000x1 S2x1650000x64 where
  offsetDims := [0, 2]
  collapsedSliceDims := [1]
  operandBatchingDims := []
  startIndicesBatchingDims := []
  startIndexMap := [1]
  indexVectorDim := 1
  sliceSizes := ![2, 1, 64]
  wf := gather_S2x50000x64_S1650000x1_S2x1650000x64_02_1_n_n_1_1_2164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def scatter_S2x50000x64_S1650000x1_S2x1650000x64_02_1_1_1 : ScatterDims S2x50000x64 S1650000x1 S2x1650000x64 where
  updateWindowDims := [0, 2]
  insertedWindowDims := [1]
  scatterDimsToOperandDims := [1]
  indexVectorDim := 1
  wf := scatter_S2x50000x64_S1650000x1_S2x1650000x64_02_1_1_1_wf

abbrev win0_0 : Pipeline.Window sig grid0 :=
  Pipeline.Window.ofSpec (Memref.whole main_v79) S2x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v80) S2x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v82) S1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v84) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v86) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v87) S2x4096x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x50000x64 : Shape := ⟨3, ![2, 50000, 64]⟩
abbrev S2x1600000 : Shape := ⟨2, ![2, 1600000]⟩
abbrev S1600000 : Shape := ⟨1, ![1600000]⟩
abbrev S2x50000 : Shape := ⟨2, ![2, 50000]⟩
abbrev S64x64 : Shape := ⟨2, ![64, 64]⟩
abbrev S64 : Shape := ⟨1, ![64]⟩
abbrev S1x1600000 : Shape := ⟨2, ![1, 1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1600000x1 : Shape := ⟨2, ![1600000, 1]⟩
abbrev S2x1650000 : Shape := ⟨2, ![2, 1650000]⟩
abbrev S1x1650000x1 : Shape := ⟨3, ![1, 1650000, 1]⟩
abbrev S2x1650000x1 : Shape := ⟨3, ![2, 1650000, 1]⟩
abbrev S2x1650000x64 : Shape := ⟨3, ![2, 1650000, 64]⟩
abbrev S1x1x64 : Shape := ⟨3, ![1, 1, 64]⟩

abbrev nBuf : Space → Nat
  | .hbm => 148
  | .vmem => 0
  | .smem => 0
  | _ => 0

abbrev hbmTy0_0 (i : Nat) : BufTy := match i % 128 with
  | 0 => ⟨S2x50000x64, .f32⟩
  | 1 => ⟨S2x1600000, .i32⟩
  | 2 => ⟨S1600000, .f32⟩
  | 3 => ⟨S2x50000, .f32⟩
  | 4 => ⟨S64x64, .f32⟩
  | 5 => ⟨S64x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S50000, .i32⟩
  | 12 => ⟨S1650000, .i32⟩
  | 13 => ⟨S1650000, .i32⟩
  | 14 => ⟨S_, .f32⟩
  | 15 => ⟨S50000, .f32⟩
  | 16 => ⟨S_, .i32⟩
  | 17 => ⟨S1650000, .i32⟩
  | 18 => ⟨S1650000, .i1⟩
  | 19 => ⟨S_, .i32⟩
  | 20 => ⟨S1650000, .i32⟩
  | 21 => ⟨S1650000, .i32⟩
  | 22 => ⟨S1650000, .i32⟩
  | 23 => ⟨S1650000x1, .i32⟩
  | 24 => ⟨S_, .f32⟩
  | 25 => ⟨S1650000, .f32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S1650000, .i32⟩
  | 40 => ⟨S1650000, .i1⟩
  | 41 => ⟨S_, .i32⟩
  | 42 => ⟨S1650000, .i32⟩
  | 43 => ⟨S1650000, .i32⟩
  | 44 => ⟨S1650000, .i32⟩
  | 45 => ⟨S1650000x1, .i32⟩
  | 46 => ⟨S1650000, .f32⟩
  | 47 => ⟨S_, .i32⟩
  | 48 => ⟨S1650000, .i32⟩
  | 49 => ⟨S1650000, .i1⟩
  | 50 => ⟨S_, .i32⟩
  | 51 => ⟨S1650000, .i32⟩
  | 52 => ⟨S1650000, .i32⟩
  | 53 => ⟨S1650000, .i32⟩
  | 54 => ⟨S1650000x1, .i32⟩
  | 55 => ⟨S1650000, .f32⟩
  | 56 => ⟨S1650000, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S2x1600000, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S2x1600000, .f32⟩
  | 75 => ⟨S2x1600000, .f32⟩
  | 76 => ⟨S_, .f32⟩
  | 77 => ⟨S2x1600000, .f32⟩
  | 78 => ⟨S2x1600000, .f32⟩
  | 79 => ⟨S2x1600000, .f32⟩
  | 80 => ⟨S_, .f32⟩
  | 81 => ⟨S2x1600000, .f32⟩
  | 82 => ⟨S2x1600000, .f32⟩
  | 83 => ⟨S_, .f32⟩
  | 84 => ⟨S2x1600000, .f32⟩
  | 85 => ⟨S2x1600000, .f32⟩
  | 86 => ⟨S1x1600000, .f32⟩
  | 87 => ⟨S2x1600000, .f32⟩
  | 88 => ⟨S2x1600000, .f32⟩
  | 89 => ⟨S_, .f32⟩
  | 90 => ⟨S2x1600000, .f32⟩
  | 91 => ⟨S2x1600000, .f32⟩
  | 92 => ⟨S_, .f32⟩
  | 93 => ⟨S1x1600000, .f32⟩
  | 94 => ⟨S1x1600000, .f32⟩
  | 95 => ⟨S2x1600000, .f32⟩
  | 96 => ⟨S2x1600000, .f32⟩
  | 97 => ⟨S2x1600000, .f32⟩
  | 98 => ⟨S_, .f32⟩
  | 99 => ⟨S2x50000, .f32⟩
  | 100 => ⟨S2x1650000, .f32⟩
  | 101 => ⟨S2x50000x64, .f32⟩
  | 102 => ⟨S2x50000x64, .f32⟩
  | 103 => ⟨S1x1650000x1, .f32⟩
  | 104 => ⟨S_, .f32⟩
  | 105 => ⟨S2x1650000, .f32⟩
  | 106 => ⟨S2x1650000, .f32⟩
  | 107 => ⟨S2x1650000x1, .f32⟩
  | 108 => ⟨S_, .i32⟩
  | 109 => ⟨S1650000, .i32⟩
  | 110 => ⟨S1650000, .i1⟩
  | 111 => ⟨S_, .i32⟩
  | 112 => ⟨S1650000, .i32⟩
  | 113 => ⟨S1650000, .i32⟩
  | 114 => ⟨S1650000, .i32⟩
  | 115 => ⟨S1650000x1, .i32⟩
  | 116 => ⟨S2x1650000x64, .f32⟩
  | 117 => ⟨S2x1650000x64, .f32⟩
  | 118 => ⟨S2x1650000x64, .f32⟩
  | 119 => ⟨S2x1650000x1, .f32⟩
  | 120 => ⟨S_, .i32⟩
  | 121 => ⟨S1650000, .i32⟩
  | 122 => ⟨S1650000, .i1⟩
  | 123 => ⟨S_, .i32⟩
  | 124 => ⟨S1650000, .i32⟩
  | 125 => ⟨S1650000, .i32⟩
  | 126 => ⟨S1650000, .i32⟩
  | 127 => ⟨S1650000x1, .i32⟩
  | _ => ⟨S2x50000x64, .f32⟩

abbrev hbmTy0_1 (i : Nat) : BufTy := match i % 128 with
  | 0 => ⟨S2x1650000x64, .f32⟩
  | 1 => ⟨S2x1650000x64, .f32⟩
  | 2 => ⟨S2x1650000x64, .f32⟩
  | 3 => ⟨S2x1650000x64, .f32⟩
  | 4 => ⟨S2x1650000x64, .f32⟩
  | 5 => ⟨S2x1650000x64, .f32⟩
  | 6 => ⟨S_, .f32⟩
  | 7 => ⟨S2x50000x64, .f32⟩
  | 8 => ⟨S_, .i32⟩
  | 9 => ⟨S1650000, .i32⟩
  | 10 => ⟨S1650000, .i1⟩
  | 11 => ⟨S_, .i32⟩
  | 12 => ⟨S1650000, .i32⟩
  | 13 => ⟨S1650000, .i32⟩
  | 14 => ⟨S1650000, .i32⟩
  | 15 => ⟨S1650000x1, .i32⟩
  | 16 => ⟨S2x50000x64, .f32⟩
  | 17 => ⟨S1x1x64, .f32⟩
  | 18 => ⟨S2x50000x64, .f32⟩
  | 19 => ⟨S2x50000x64, .f32⟩
  | _ => ⟨S2x50000x64, .f32⟩

abbrev hbmTy (i : Nat) : BufTy := match i / 128 with
  | 0 => hbmTy0_0 i
  | 1 => hbmTy0_1 i
  | _ => ⟨S2x50000x64, .f32⟩

abbrev bufTy : (tb : Table) → Fin (tcTables nBuf tb) → BufTy
  | .hbm, ⟨i, _⟩ => hbmTy i
  | _, _ => ⟨S2x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_c_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_11 : Ref sig .tc := ⟨.hbm, 66, rfl⟩
abbrev main_v44 : Ref sig .tc := ⟨.hbm, 67, rfl⟩
abbrev main_v45 : Ref sig .tc := ⟨.hbm, 68, rfl⟩
abbrev main_c_12 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_v56 : Ref sig .tc := ⟨.hbm, 82, rfl⟩
abbrev main_cst_15 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_16 : Ref sig .tc := ⟨.hbm, 89, rfl⟩
abbrev main_v62 : Ref sig .tc := ⟨.hbm, 90, rfl⟩
abbrev main_v63 : Ref sig .tc := ⟨.hbm, 91, rfl⟩
abbrev main_cst_17 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_18 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_19 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_20 : Ref sig .tc := ⟨.hbm, 108, rfl⟩
abbrev main_v77 : Ref sig .tc := ⟨.hbm, 109, rfl⟩
abbrev main_v78 : Ref sig .tc := ⟨.hbm, 110, rfl⟩
abbrev main_c_21 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_c_22 : Ref sig .tc := ⟨.hbm, 120, rfl⟩
abbrev main_v87 : Ref sig .tc := ⟨.hbm, 121, rfl⟩
abbrev main_v88 : Ref sig .tc := ⟨.hbm, 122, rfl⟩
abbrev main_c_23 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_24 : Ref sig .tc := ⟨.hbm, 134, rfl⟩
abbrev main_v99 : Ref sig .tc := ⟨.hbm, 135, rfl⟩
abbrev main_c_25 : Ref sig .tc := ⟨.hbm, 136, rfl⟩
abbrev main_v100 : Ref sig .tc := ⟨.hbm, 137, rfl⟩
abbrev main_v101 : Ref sig .tc := ⟨.hbm, 138, rfl⟩
abbrev main_c_26 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S_S1650000 : S_.BroadcastsInDim S1650000 (![] : Fin 0 → Fin S1650000.rank)
  bcast_S1650000_S1650000x1_0 : S1650000.BroadcastsInDim S1650000x1 (![0] : Fin 1 → Fin S1650000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S2x1600000 : S_.BroadcastsInDim S2x1600000 (![] : Fin 0 → Fin S2x1600000.rank)
  bcast_S1600000_S1x1600000_1 : S1600000.BroadcastsInDim S1x1600000 (![1] : Fin 1 → Fin S1x1600000.rank)
  bcast_S1x1600000_S2x1600000_0_1 : S1x1600000.BroadcastsInDim S2x1600000 (![0, 1] : Fin 2 → Fin S2x1600000.rank)
  bcast_S_S1x1600000 : S_.BroadcastsInDim S1x1600000 (![] : Fin 0 → Fin S1x1600000.rank)
  bcast_S_S2x50000 : S_.BroadcastsInDim S2x50000 (![] : Fin 0 → Fin S2x50000.rank)
  concatenates_S2x1600000_S2x50000_S2x1650000_d1 : Shape.Concatenates [S2x1600000, S2x50000] S2x1650000 1
  bcast_S1650000_S1x1650000x1_1 : S1650000.BroadcastsInDim S1x1650000x1 (![1] : Fin 1 → Fin S1x1650000x1.rank)
  bcast_S_S2x1650000 : S_.BroadcastsInDim S2x1650000 (![] : Fin 0 → Fin S2x1650000.rank)
  bcast_S2x1650000_S2x1650000x1_0_1 : S2x1650000.BroadcastsInDim S2x1650000x1 (![0, 1] : Fin 2 → Fin S2x1650000x1.rank)
  bcast_S2x1650000x1_S2x1650000x64_0_1_2 : S2x1650000x1.BroadcastsInDim S2x1650000x64 (![0, 1, 2] : Fin 3 → Fin S2x1650000x64.rank)
  bcast_S1x1650000x1_S2x1650000x64_0_1_2 : S1x1650000x1.BroadcastsInDim S2x1650000x64 (![0, 1, 2] : Fin 3 → Fin S2x1650000x64.rank)
  bcast_S_S2x50000x64 : S_.BroadcastsInDim S2x50000x64 (![] : Fin 0 → Fin S2x50000x64.rank)
  bcast_S64_S1x1x64_2 : S64.BroadcastsInDim S1x1x64 (![2] : Fin 1 → Fin S1x1x64.rank)
  bcast_S1x1x64_S2x50000x64_0_1_2 : S1x1x64.BroadcastsInDim S2x50000x64 (![0, 1, 2] : Fin 3 → Fin S2x50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S2x50000_S1600000x1_S2x1600000_0_1_n_n_1_1_21_wf : GatherDims.WF S2x50000 S1600000x1 S2x1600000 [0] [1] [] [1] [] 1 ![2, 1]
  dot_S2x50000x64_S64x64_S2x50000x64_2_1_01_0_n_n_wf : DotDims.WF S2x50000x64 S64x64 S2x50000x64 [2] [1] [0, 1] [0] [] []
  gather_S2x50000x64_S1650000x1_S2x1650000x64_02_1_n_n_1_1_2164_wf : GatherDims.WF S2x50000x64 S1650000x1 S2x1650000x64 [0, 2] [1] [] [1] [] 1 ![2, 1, 64]
  scatter_S2x50000x64_S1650000x1_S2x1650000x64_02_1_1_1_wf : ScatterDims.WF S2x50000x64 S1650000x1 S2x1650000x64 [0, 2] [1] [1] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S2x50000_S1600000x1_S2x1600000_0_1_n_n_1_1_21 : GatherDims S2x50000 S1600000x1 S2x1600000 where
  offsetDims := [0]
  collapsedSliceDims := [1]
  operandBatchingDims := []
  startIndicesBatchingDims := []
  startIndexMap := [1]
  indexVectorDim := 1
  sliceSizes := ![2, 1]
  wf := gather_S2x50000_S1600000x1_S2x1600000_0_1_n_n_1_1_21_wf
def dot_S2x50000x64_S64x64_S2x50000x64_2_1_01_0_n_n : DotDims S2x50000x64 S64x64 S2x50000x64 where
  lhsContracting := [2]
  rhsContracting := [1]
  lhsNonContracting := [0, 1]
  rhsNonContracting := [0]
  lhsBatch := []
  rhsBatch := []
  wf := dot_S2x50000x64_S64x64_S2x50000x64_2_1_01_0_n_n_wf
def gather_S2x50000x64_S1650000x1_S2x1650000x64_02_1_n_n_1_1_2164 : GatherDims S2x50000x64 S1650000x1 S2x1650000x64 where
  offsetDims := [0, 2]
  collapsedSliceDims := [1]
  operandBatchingDims := []
  startIndicesBatchingDims := []
  startIndexMap := [1]
  indexVectorDim := 1
  sliceSizes := ![2, 1, 64]
  wf := gather_S2x50000x64_S1650000x1_S2x1650000x64_02_1_n_n_1_1_2164_wf
def scatter_S2x50000x64_S1650000x1_S2x1650000x64_02_1_1_1 : ScatterDims S2x50000x64 S1650000x1 S2x1650000x64 where
  updateWindowDims := [0, 2]
  insertedWindowDims := [1]
  scatterDimsToOperandDims := [1]
  indexVectorDim := 1
  wf := scatter_S2x50000x64_S1650000x1_S2x1650000x64_02_1_1_1_wf

class Facts : Prop extends Facts₀ where

variable [Facts]
-- ==== Proof.HostBefore.lean ====
/-
  What the region finds in its operand arrays, and in the target-index vector the host tail reads, as pure functions of
  the arguments. The kernel's host operations before the region are, value for value, the reference's own first
  operations (the source and target index vectors with the self loops appended, the degree normalisation, the blend
  weight), so each array is stated over the reference's stages of the same arguments: the gathered features are the
  features at the wrapped source indices, padded by 688 rows; the blend weight and the normalisation are the
  reference's, padded by 688 entries; the weights are the argument matrices transposed. Format changes are kept as
  written (they are the identity only at the ideal instance); everything here holds at every float instance.
-/
import proofs.«175122_j28492813041739_1_alg».proof.Proof.Gen.KernelIdeal.Frame
import proofs.«175122_j28492813041739_1_alg».proof.Proof.RefRead

set_option maxRecDepth 16384

noncomputable section

namespace Cert.KernelIdeal.HostBefore

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The concordant weights as the kernel takes them: the argument matrix transposed (then narrowed). -/
theorem V_v84 (c : Dev nD) :
    (V m c main_v84 : (⟨S64x64, .bf16⟩ : BufTy).Contents (Elt F))
      = truncf .bf16 (transpose S64x64 [1, 0] (m ((c.tc : Thread nD τ).loc main_arg4)) transposes_S64x64_S64x64_1_0) bitsLt_bf16_f32 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> (try simp only [TRef.ofBuf, TRef.toBuf, cast_eq]) <;> rfl

/-- The discordant weights likewise. -/
theorem V_v86 (c : Dev nD) :
    (V m c main_v86 : (⟨S64x64, .bf16⟩ : BufTy).Contents (Elt F))
      = truncf .bf16 (transpose S64x64 [1, 0] (m ((c.tc : Thread nD τ).loc main_arg5)) transposes_S64x64_S64x64_1_0) bitsLt_bf16_f32 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> (try simp only [TRef.ofBuf, TRef.toBuf, cast_eq]) <;> rfl

/-- The target indices with the self loops appended: the reference's. -/
theorem V_v6 (c : Dev nD) :
    (V m c main_v6 : (⟨S1650000, .i32⟩ : BufTy).Contents (Elt F)) = Cert.ReferenceIdeal.ReadP.val_main_v6 (F := F) (m ((c.tc : Thread nD τ).loc main_arg1)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> (try simp only [TRef.ofBuf, TRef.toBuf, cast_eq]) <;> rfl

/-- The normalisation row: the reference's per-row normalisation, padded by 688 entries and given a leading unit axis. -/
theorem V_v82 (c : Dev nD) :
    (V m c main_v82 : (⟨S1x1650688, .f32⟩ : BufTy).Contents (Elt F))
      = shapeCast _ (pad S1650688 ![0] ![688] ![0] (Cert.ReferenceIdeal.ReadP.val_main_v36 (F := F) (m ((c.tc : Thread nD τ).loc main_arg1)))
          (sitofp (F := F) .f32 (constantI S_ 32 0#32)) pads_S1650000_S1650688_06880 h_S_) shapeCasts_S1650688_S1x1650688 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> (try simp only [TRef.ofBuf, TRef.toBuf, cast_eq]) <;> rfl

/-- The blend weight: the reference's, padded by 688 entries per batch entry. -/
theorem V_v80 (c : Dev nD) :
    (V m c main_v80 : (⟨S2x1650688, .f32⟩ : BufTy).Contents (Elt F))
      = pad S2x1650688 ![0, 0] ![0, 688] ![0, 0] (Cert.ReferenceIdeal.ReadP.val_main_v70 (F := F) (m ((c.tc : Thread nD τ).loc main_arg1)) (m ((c.tc : Thread nD τ).loc main_arg2)) (m ((c.tc : Thread nD τ).loc main_arg3)))
          (sitofp (F := F) .f32 (constantI S_ 32 0#32)) pads_S2x1650000_S2x1650688_000_06880 h_S_ := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> (try simp only [TRef.ofBuf, TRef.toBuf, cast_eq]) <;> rfl

/-- The gathered features: the (narrowed) feature array read at the reference's wrapped source indices, padded by 688 rows. -/
theorem V_v79 (c : Dev nD) :
    (V m c main_v79 : (⟨S2x1650688x64, .bf16⟩ : BufTy).Contents (Elt F))
      = pad S2x1650688x64 ![0, 0, 0] ![0, 688, 0] ![0, 0, 0]
          (Host.gather gather_S2x50000x64_S1650000x1_S2x1650000x64_02_1_n_n_1_1_2164
            (truncf .bf16 (m ((c.tc : Thread nD τ).loc main_arg0)) bitsLt_bf16_f32) (Cert.ReferenceIdeal.ReadP.val_main_v82 (F := F) (m ((c.tc : Thread nD τ).loc main_arg1))))
          (sitofp (F := F) .bf16 (constantI S_ 32 0#32)) pads_S2x1650000x64_S2x1650688x64_000_06880_000 h_S_ := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> (try simp only [TRef.ofBuf, TRef.toBuf, cast_eq]) <;> rfl

end Cert.KernelIdeal.HostBefore

end
-- ==== Proof.HostAfter.lean ====
/-
  The program's result from the region's output array: the host operations after the region drop the 688 padding
  rows of the message array, add every remaining row into its target node's row of a zero array (the target indices
  wrapped as the reference wraps them), and add the bias along the channels. The target-index vector is a buffer the
  region leaves alone, so it still holds what the host prefix wrote; the message array is what the pipeline's proof data
  says every write-back left. Holds at every float instance.
-/
import proofs.«175122_j28492813041739_1_alg».proof.Proof.Gen.KernelIdeal.Frame

set_option maxRecDepth 16384

noncomputable section

namespace Cert.KernelIdeal.HostAfter

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The target indices as a scatter takes them: negative ones wrapped by the node count, as a column. -/
def wrapCol (t : (⟨S1650000, .i32⟩ : BufTy).Contents (Elt F)) : (⟨S1650000x1, .i32⟩ : BufTy).Contents (Elt F) :=
  broadcastInDim S1650000x1 ![0] bcast_S1650000_S1650000x1_0
    (select (cmpi .slt t (broadcastInDim S1650000 ![] bcast_S_S1650000 (constantI S_ 32 0#32)))
      (addi t (broadcastInDim S1650000 ![] bcast_S_S1650000 (constantI S_ 32 50000#32))) t)

/-- The host tail as one function of the message array `M`, the target-index vector `t` and the bias `bias`. -/
def tailOf (M : (⟨S2x1650688x64, .f32⟩ : BufTy).Contents (Elt F)) (t : (⟨S1650000, .i32⟩ : BufTy).Contents (Elt F))
    (bias : (⟨S64, .f32⟩ : BufTy).Contents (Elt F)) : (⟨S2x50000x64, .f32⟩ : BufTy).Contents (Elt F) :=
  addf (Host.scatterAdd scatter_S2x50000x64_S1650000x1_S2x1650000x64_02_1_1_1 (broadcastInDim S2x50000x64 ![] bcast_S_S2x50000x64 (constant (F := F) S_ .f32 0x00000000#32))
      (wrapCol (F := F) t) (extractStridedSlice S2x1650000x64 ![0, 0, 0] M slices_S2x1650688x64_S2x1650000x64_0_0_0))
    (broadcastInDim S2x50000x64 ![0, 1, 2] bcast_S1x1x64_S2x50000x64_0_1_2 (broadcastInDim S1x1x64 ![2] bcast_S64_S1x1x64_2 bias))

/-- After the tail, the result buffer holds `tailOf` of the region's output array, the target indices as the region
    found them, and the bias argument. -/
theorem tail_v99 (c : Dev nD) :
    (Pipeline.afterTail₀ cfgs (dats m) 0 (V0 m) [hostOps1] c main_v99 : (⟨S2x50000x64, .f32⟩ : BufTy).Contents (Elt F))
      = tailOf (F := F) ((dats m 0 c).arrAt 5 cfg0.N) (V m c main_v6) (m ((c.tc : Thread nD τ).loc main_arg6)) := by
  have h87 : Pipeline.withArrays (cfgs 0).spec c (V0 m c) (fun w => (dats m 0 c).arrAt w (cfgs 0).N) (Proc.devRef .tc main_v87)
      = (dats m 0 c).arrAt 5 cfg0.N := Pipeline.withArrays_arr spec0 launch0.win.arr_inj c _ _ 5
  have h6 : Pipeline.withArrays (cfgs 0).spec c (V0 m c) (fun w => (dats m 0 c).arrAt w (cfgs 0).N) (Proc.devRef .tc main_v6)
      = V m c main_v6 :=
    Pipeline.withArrays_of_ne _ c (V0 m c) _ main_v6 (by exact (by decide : ∀ w, Pipeline.arrRef spec0 w ≠ main_v6))
  have ha6 : Pipeline.withArrays (cfgs 0).spec c (V0 m c) (fun w => (dats m 0 c).arrAt w (cfgs 0).N) (Proc.devRef .tc main_arg6)
      = m ((c.tc : Thread nD τ).loc main_arg6) :=
    (Pipeline.withArrays_of_ne _ c (V0 m c) _ main_arg6 (by exact (by decide : ∀ w, Pipeline.arrRef spec0 w ≠ main_arg6))).trans (V_main_arg6 m c)
  unfold Pipeline.afterTail₀ tailOf wrapCol
  simp only [hostOps1, List.flatten_cons, List.flatten_nil, List.append_nil]
  generalize Pipeline.withArrays (cfgs 0).spec c (V0 m c) (fun w => (dats m 0 c).arrAt w (cfgs 0).N) = W at h87 h6 ha6 ⊢
  after_results_simp
  rw [h87, h6, ha6]

end Cert.KernelIdeal.HostAfter

end
-- ==== Proof.EdgeMsg.lean ====
/-
  The edge message as ONE function of arrays, index by index, over the extended reals.

  For `R` edge rows: `x : [2, R, 64]` holds each row's source-node features (per batch entry), `f : [2, R]` the
  discordant blend weight of the row (per batch entry), `n : [1, R]` the row's symmetric normalisation, and
  `wc, wd : [64, 64]` the two weight matrices laid out input-channel first. The message of batch entry `b`, row `e`,
  output channel `o` is
      ((1 − f[b,e]) · Σ_k x[b,e,k] · wc[k,o]  +  f[b,e] · Σ_k x[b,e,k] · wd[k,o]) · n[0,e].
  The same definition serves one block of 4096 rows and the whole padded array of 1650688 rows: a block of the whole
  array's message is the message of the arrays' blocks, because entry `(b, e, o)` reads row `e` only.
  The literal `1` is kept as the word the programs print; it is never evaluated.
-/
import Idealize.ShloMosaic.PureOps.Ideal
import Idealize.ShloMosaic.Lib.ValueIdx

noncomputable section

open scoped BigOperators

namespace Cert.EdgeMsg

open Idealize.ShloMosaic Idealize.ShloMosaic.ValueIdx

/-- The printed literal `1.0` at the ideal instance. -/
abbrev one : EReal := Ideal.ofBits .f32 0x3F800000#32

/-- A row of 64 features against column `o` of a `[64, 64]` matrix. -/
def dot64 (u : Fin 64 → EReal) (w : (⟨2, ![64, 64]⟩ : Shape).Idx → EReal) (o : Fin 64) : EReal :=
  ∑ k : Fin 64, u k * w (ix2 k o)

/-- The blend of the concordant value `a` and the discordant value `d` at weight `fv`, scaled by `nv`. -/
def blend (fv nv a d : EReal) : EReal := ((one - fv) * a + fv * d) * nv

/-- The message array of `R` rows. -/
def msg (R : Nat) (x : (⟨3, ![2, R, 64]⟩ : Shape).Idx → EReal) (f : (⟨2, ![2, R]⟩ : Shape).Idx → EReal)
    (n : (⟨2, ![1, R]⟩ : Shape).Idx → EReal) (wc wd : (⟨2, ![64, 64]⟩ : Shape).Idx → EReal) :
    (⟨3, ![2, R, 64]⟩ : Shape).Idx → EReal := fun j =>
  let b : Fin 2 := ⟨(j 0).val, (j 0).isLt⟩
  let e : Fin R := ⟨(j 1).val, (j 1).isLt⟩
  let o : Fin 64 := ⟨(j 2).val, (j 2).isLt⟩
  blend (f (ix2 b e)) (n (ix2 (0 : Fin 1) e)) (dot64 (fun k => x (ix3 b e k)) wc o) (dot64 (fun k => x (ix3 b e k)) wd o)

/-- The message read at coordinates. -/
theorem msg_apply (R : Nat) (x : (⟨3, ![2, R, 64]⟩ : Shape).Idx → EReal) (f : (⟨2, ![2, R]⟩ : Shape).Idx → EReal)
    (n : (⟨2, ![1, R]⟩ : Shape).Idx → EReal) (wc wd : (⟨2, ![64, 64]⟩ : Shape).Idx → EReal) (b : Fin 2) (e : Fin R) (o : Fin 64) :
    msg R x f n wc wd (ix3 b e o)
      = blend (f (ix2 b e)) (n (ix2 (0 : Fin 1) e)) (dot64 (fun k => x (ix3 b e k)) wc o) (dot64 (fun k => x (ix3 b e k)) wd o) := rfl

end Cert.EdgeMsg

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  One grid point's output block is the edge message of its input blocks.

  The body stores two half blocks, one per batch entry `b`: rows `[b, ·, ·]` of the output block hold
  `((1 − f) · (x · wc) + f · (x · wd)) · n` with `x = X[b]` (4096 rows of 64 features), `f = F[b]` and `n = N[0]` laid
  out as columns and broadcast along the 64 output channels, and the two products taken on the matrix unit into a zero
  accumulator: at the ideal instance a product row is the plain sum over the 64 input channels. So each half block is
  the block `[b, ·, ·]` of ONE function of the whole input blocks, `EdgeMsg.msg 4096`, and the two stores, which tile
  the output block, leave exactly that function in it.
-/
import proofs.«175122_j28492813041739_1_alg».proof.Proof.Gen.KernelIdeal.Frame
import proofs.«175122_j28492813041739_1_alg».proof.Proof.EdgeMsg
import proofs.«175122_j28492813041739_1_alg».proof.Proof.LibColumn
import Idealize.ShloMosaic.PureOps.Ideal.Laws
import Idealize.ShloMosaic.Lib.ValueLayout
import Idealize.ShloMosaic.Lib.ValueIdx
import Idealize.ShloMosaic.Lib.Pipeline.Value

set_option maxRecDepth 16384

noncomputable section

open scoped BigOperators

namespace Cert.KernelIdeal.Payload

open Idealize.ShloMosaic Idealize.ShloMosaic.ValueIdx
open Cert.KernelIdeal Cert.KernelIdeal.Gen

/-! ## The matrix product's operand indices, axis by axis -/

theorem lhs_0 (i : S4096x64.Idx) (q : dot_S4096x64_S64x64_S4096x64_1_0_0_1_n_n.contr.Idx) : (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem lhs_1 (i : S4096x64.Idx) (q : dot_S4096x64_S64x64_S4096x64_1_0_0_1_n_n.contr.Idx) : (dot_S4096x64_S64x64_S4096x64_1_0_0_1_n_n.lhsIdx i q 1).val = (q ⟨0, by decide⟩).val :=
  dot_S4096x64_S64x64_S4096x64_1_0_0_1_n_n.lhsIdx_val_of_single rfl i q
theorem rhs_0 (i : S4096x64.Idx) (q : dot_S4096x64_S64x64_S4096x64_1_0_0_1_n_n.contr.Idx) : (dot_S4096x64_S64x64_S4096x64_1_0_0_1_n_n.rhsIdx i q 0).val = (q ⟨0, by decide⟩).val :=
  dot_S4096x64_S64x64_S4096x64_1_0_0_1_n_n.rhsIdx_val_of_single rfl i q
theorem rhs_1 (i : S4096x64.Idx) (q : dot_S4096x64_S64x64_S4096x64_1_0_0_1_n_n.contr.Idx) : (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- A row of the product into a zero accumulator: the sum over the 64 input channels. -/
theorem matmul_row (xb : FVec Ideal S4096x64 .bf16) (w : FVec Ideal S64x64 .bf16) (r : Fin 4096) (o : Fin 64) :
    matmul dot_S4096x64_S64x64_S4096x64_1_0_0_1_n_n none xb w (constant S4096x64 .f32 0x00000000#32) (ix2 r o) = EdgeMsg.dot64 (fun k => xb (ix2 r k)) w o := by
  show FloatOps.matmul dot_S4096x64_S64x64_S4096x64_1_0_0_1_n_n none xb w (constant S4096x64 .f32 0x00000000#32) (ix2 r o) = _
  rw [Ideal.matmul_constant_zero_apply, ← Equiv.sum_comp (contrEquiv1 dot_S4096x64_S64x64_S4096x64_1_0_0_1_n_n 64 rfl rfl).symm]
  unfold EdgeMsg.dot64
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 r o) ((contrEquiv1 dot_S4096x64_S64x64_S4096x64_1_0_0_1_n_n 64 rfl rfl).symm k) = ix2 r k := funext fun a => Fin.ext (by
    match a with
    | ⟨0, _⟩ => exact lhs_0 _ _
    | ⟨1, _⟩ => exact (lhs_1 _ _).trans hk)
  have er : dot_S4096x64_S64x64_S4096x64_1_0_0_1_n_n.rhsIdx (ix2 r o) ((contrEquiv1 dot_S4096x64_S64x64_S4096x64_1_0_0_1_n_n 64 rfl rfl).symm k) = ix2 k o := funext fun a => Fin.ext (by
    match a with
    | ⟨0, _⟩ => exact (rhs_0 _ _).trans hk
    | ⟨1, _⟩ => exact rhs_1 _ _)
  rw [el, er]

/-! ## Rows laid out as columns -/

/-- A `[1, 4096]` row recast to a `[4096, 1]` column holds, in row `r`, the row's entry `r`. -/
theorem col_of_row (v : FVec Ideal S1x4096 .f32) (r : Fin 4096) (u : Fin 1) :
    shapeCast S4096x1 (shapeCast S4096 v shapeCasts_S1x4096_S4096) shapeCasts_S4096_S4096x1 (ix2 r u) = v (ix2 (0 : Fin 1) r) := by
  rw [Cert.LibColumn.shapeCast_a_a1_apply, shapeCast_1a_a_apply]

/-- A `[4096, 1]` column broadcast along the 64 channels. -/
theorem bcast_col (v : FVec Ideal S4096x1 .f32) (r : Fin 4096) (o : Fin 64) :
    broadcastTo S4096x64 v broadcasts_S4096x1_S4096x64 (ix2 r o) = v (ix2 r (0 : Fin 1)) :=
  Cert.LibColumn.broadcastTo_a1_ab_apply v _ r o

/-- The half block of one batch entry, from its 4096 rows of features `xb`, its blend weights `fb`, the normalisation
    `nb` and the two weight matrices: the message, row by row. -/
theorem half_block (w3 w4 : FVec Ideal S64x64 .bf16) (nb : FVec Ideal S1x4096 .f32) (xb : FVec Ideal S1x4096x64 .bf16)
    (fb : FVec Ideal S1x4096 .f32) (u : Fin 1) (r : Fin 4096) (o : Fin 64) :
    k0_pay5 (F := Ideal) w3 w4 nb xb fb (ix3 u r o)
      = EdgeMsg.blend (fb (ix2 (0 : Fin 1) r)) (nb (ix2 (0 : Fin 1) r))
          (EdgeMsg.dot64 (fun k => xb (ix3 (0 : Fin 1) r k)) w3 o) (EdgeMsg.dot64 (fun k => xb (ix3 (0 : Fin 1) r k)) w4 o) := by
  unfold k0_pay5 k0_pay2 k0_pay3 k0_pay4
  dsimp only
  refine (shapeCast_ab_1ab_apply _ _ u r o).trans ?_
  simp only [mulf_apply, addf_apply]
  rw [bcast_col, bcast_col, bcast_col, matmul_row, matmul_row]
  simp only [subf_apply, broadcast_apply, col_of_row, shapeCast_1ab_ab_apply, shapeCast_self]
  rfl

/-- The same half block as the second store's payload names it: the columns, the two product rows and the literal `1`
    arrive as values computed before the first store. -/
theorem half_block' (w3 w4 : FVec Ideal S64x64 .bf16) (nb : FVec Ideal S1x4096 .f32) (xb : FVec Ideal S1x4096x64 .bf16)
    (fb : FVec Ideal S1x4096 .f32) (u : Fin 1) (r : Fin 4096) (o : Fin 64) :
    k0_pay1 (F := Ideal) (k0_pay4 nb) (k0_pay7 fb) (k0_pay8 w3 xb) (k0_pay9 w4 xb) (Scalar.ofBits .f32 0x3F800000#32) (ix3 u r o)
      = EdgeMsg.blend (fb (ix2 (0 : Fin 1) r)) (nb (ix2 (0 : Fin 1) r))
          (EdgeMsg.dot64 (fun k => xb (ix3 (0 : Fin 1) r k)) w3 o) (EdgeMsg.dot64 (fun k => xb (ix3 (0 : Fin 1) r k)) w4 o) := by
  unfold k0_pay1 k0_pay4 k0_pay7 k0_pay8 k0_pay9 k0_pay6 k0_pay2 k0_pay3
  dsimp only
  refine (shapeCast_ab_1ab_apply _ _ u r o).trans ?_
  simp only [mulf_apply, addf_apply]
  rw [bcast_col, bcast_col, bcast_col, matmul_row, matmul_row]
  simp only [subf_apply, broadcast_apply, col_of_row, shapeCast_1ab_ab_apply, shapeCast_self]
  rfl

/-! ## What the body's loads read of the input blocks -/

section Loads
variable (x0 : Vec Ideal S2x4096x64 .bf16) (x1 : Vec Ideal S2x4096 .f32) (x2 : Vec Ideal S1x4096 .f32)

theorem ld_x0_lo (u : Fin 1) (r : Fin 4096) (k : Fin 64) : View.ld x0 r0_2 (ix3 u r k) = x0 (ix3 (0 : Fin 2) r k) :=
  congrArg x0 (funext fun a => Fin.ext (by
    have hu : u.val = 0 := by omega
    match a with
    | ⟨0, _⟩ => show 0 + 1 * u.val = 0; omega
    | ⟨1, _⟩ => show 0 + 1 * r.val = r.val; omega
    | ⟨2, _⟩ => show 0 + 1 * k.val = k.val; omega))
theorem ld_x0_hi (u : Fin 1) (r : Fin 4096) (k : Fin 64) : View.ld x0 r0_4 (ix3 u r k) = x0 (ix3 (1 : Fin 2) r k) :=
  congrArg x0 (funext fun a => Fin.ext (by
    have hu : u.val = 0 := by omega
    match a with
    | ⟨0, _⟩ => show 1 + 1 * u.val = 1; omega
    | ⟨1, _⟩ => show 0 + 1 * r.val = r.val; omega
    | ⟨2, _⟩ => show 0 + 1 * k.val = k.val; omega))
theorem ld_x1_lo (u : Fin 1) (r : Fin 4096) : View.ld x1 r0_3 (ix2 u r) = x1 (ix2 (0 : Fin 2) r) :=
  congrArg x1 (funext fun a => Fin.ext (by
    have hu : u.val = 0 := by omega
    match a with
    | ⟨0, _⟩ => show 0 + 1 * u.val = 0; omega
    | ⟨1, _⟩ => show 0 + 1 * r.val = r.val; omega))
theorem ld_x1_hi (u : Fin 1) (r : Fin 4096) : View.ld x1 r0_5 (ix2 u r) = x1 (ix2 (1 : Fin 2) r) :=
  congrArg x1 (funext fun a => Fin.ext (by
    have hu : u.val = 0 := by omega
    match a with
    | ⟨0, _⟩ => show 1 + 1 * u.val = 1; omega
    | ⟨1, _⟩ => show 0 + 1 * r.val = r.val; omega))
theorem ld_x2 (u : Fin 1) (r : Fin 4096) : View.ld x2 r0_1 (ix2 u r) = x2 (ix2 (0 : Fin 1) r) :=
  congrArg x2 (funext fun a => Fin.ext (by
    have hu : u.val = 0 := by omega
    match a with
    | ⟨0, _⟩ => show 0 + 1 * u.val = 0; omega
    | ⟨1, _⟩ => show 0 + 1 * r.val = r.val; omega))
theorem ld_w (w : Vec Ideal S64x64 .bf16) : View.ld w r0_0 = w :=
  View.ld_unit_zero (S := S64x64) (funext fun a => by match a with | ⟨0, _⟩ => rfl | ⟨1, _⟩ => rfl) _ w

end Loads

/-! ## The block -/

/-- Where the two stores' rectangles put their local index. -/
theorem emb_lo (u : Fin 1) (r : Fin 4096) (o : Fin 64) : r0_2.emb (ix3 u r o) = ix3 (0 : Fin 2) r o :=
  funext fun a => Fin.ext (by
    have hu : u.val = 0 := by omega
    match a with
    | ⟨0, _⟩ => show 0 + 1 * u.val = 0; omega
    | ⟨1, _⟩ => show 0 + 1 * r.val = r.val; omega
    | ⟨2, _⟩ => show 0 + 1 * o.val = o.val; omega)
theorem emb_hi (u : Fin 1) (r : Fin 4096) (o : Fin 64) : r0_4.emb (ix3 u r o) = ix3 (1 : Fin 2) r o :=
  funext fun a => Fin.ext (by
    have hu : u.val = 0 := by omega
    match a with
    | ⟨0, _⟩ => show 1 + 1 * u.val = 1; omega
    | ⟨1, _⟩ => show 0 + 1 * r.val = r.val; omega
    | ⟨2, _⟩ => show 0 + 1 * o.val = o.val; omega)

/-- What a grid point leaves in its output block: the edge message of its input blocks. -/
theorem out_eq (x0 : Vec Ideal S2x4096x64 .bf16) (x1 : Vec Ideal S2x4096 .f32) (x2 : Vec Ideal S1x4096 .f32)
    (x3 x4 : Vec Ideal S64x64 .bf16) :
    out0_5 (F := Ideal) x0 x1 x2 x3 x4 = EdgeMsg.msg 4096 x0 x1 x2 x3 x4 := by
  funext y
  unfold out0_5
  refine View.canon_apply_of_pieces (Val := Elt Ideal) (EdgeMsg.msg 4096 x0 x1 x2 x3 x4) _ ?_ y (cover0_5 _ _ y)
  intro p hp x
  simp only [List.mem_cons, List.mem_nil_iff, or_false] at hp
  rcases hp with rfl | rfl
  · obtain ⟨u, r, o, rfl⟩ : ∃ (u : Fin 1) (r : Fin 4096) (o : Fin 64), x = ix3 u r o := ⟨x 0, x 1, x 2, eq_ix3 x⟩
    show k0_pay1 (F := Ideal) (k0_pay4 (View.ld x2 r0_1)) (k0_pay7 (View.ld x1 r0_5)) (k0_pay8 (View.ld x3 r0_0) (View.ld x0 r0_4))
        (k0_pay9 (View.ld x4 r0_0) (View.ld x0 r0_4)) (Scalar.ofBits .f32 0x3F800000#32) (ix3 u r o) = EdgeMsg.msg 4096 x0 x1 x2 x3 x4 (r0_4.emb (ix3 u r o))
    rw [emb_hi, EdgeMsg.msg_apply, half_block', ld_w, ld_w, ld_x1_hi, ld_x2]
    refine congrArg₂ (fun a d => EdgeMsg.blend _ _ a d) ?_ ?_ <;>
      exact congrArg (fun v => EdgeMsg.dot64 v _ o) (funext fun k => ld_x0_hi x0 0 r k)
  · obtain ⟨u, r, o, rfl⟩ : ∃ (u : Fin 1) (r : Fin 4096) (o : Fin 64), x = ix3 u r o := ⟨x 0, x 1, x 2, eq_ix3 x⟩
    show k0_pay5 (F := Ideal) (View.ld x3 r0_0) (View.ld x4 r0_0) (View.ld x2 r0_1) (View.ld x0 r0_2) (View.ld x1 r0_3) (ix3 u r o)
        = EdgeMsg.msg 4096 x0 x1 x2 x3 x4 (r0_2.emb (ix3 u r o))
    rw [emb_lo, EdgeMsg.msg_apply, half_block, ld_w, ld_w, ld_x1_lo, ld_x2]
    refine congrArg₂ (fun a d => EdgeMsg.blend _ _ a d) ?_ ?_ <;>
      exact congrArg (fun v => EdgeMsg.dot64 v _ o) (funext fun k => ld_x0_lo x0 0 r k)

end Cert.KernelIdeal.Payload

end
-- ==== Proof.Blocks.lean ====
/-
  From blocks to the array: after the run the region's output array IS the edge message of the whole operand arrays.

  Point `t` of the 403-point grid works on rows `4096·t … 4096·t + 4095`: its feature, blend-weight and normalisation
  blocks are those rows of their arrays, both weight blocks are the whole matrices, and its output block is those rows
  of the output array. Entry `(b, e, o)` of the message reads row `e` of each array only, so the block's message is
  the block of the whole arrays' message; and since 403 · 4096 = 1650688 the output's blocks tile the array, so every
  index is written by the point `e / 4096`.
-/
import proofs.«175122_j28492813041739_1_alg».proof.Proof.Payload

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The printed index maps, decided over the grid: the three streamed inputs move with the output along the row axis
    and sit at block 0 elsewhere; the weights stay at block 0; the output's row block is the point's number. -/
theorem idx_facts : ∀ t : Fin cfg0.N,
    win0_5.index t (0 : Fin 3) = 0 ∧ win0_5.index t (1 : Fin 3) = t.val ∧ win0_5.index t (2 : Fin 3) = 0
    ∧ win0_0.index t (0 : Fin 3) = 0 ∧ win0_0.index t (1 : Fin 3) = t.val ∧ win0_0.index t (2 : Fin 3) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The arrays and the blocks, by their literal types -/

abbrev A0 (c : Dev nD) : S2x1650688x64.Idx → EReal := V m c main_v79
abbrev A1 (c : Dev nD) : S2x1650688.Idx → EReal := V m c main_v80
abbrev A2 (c : Dev nD) : S1x1650688.Idx → EReal := V m c main_v82
abbrev A3 (c : Dev nD) : S64x64.Idx → EReal := V m c main_v84
abbrev A4 (c : Dev nD) : S64x64.Idx → EReal := V m c main_v86
abbrev B0 (c : Dev nD) (t : Fin cfg0.N) : S2x4096x64.Idx → EReal := iblk m c 0 t
abbrev B1 (c : Dev nD) (t : Fin cfg0.N) : S2x4096.Idx → EReal := iblk m c 1 t
abbrev B2 (c : Dev nD) (t : Fin cfg0.N) : S1x4096.Idx → EReal := iblk m c 2 t
abbrev B3 (c : Dev nD) (t : Fin cfg0.N) : S64x64.Idx → EReal := iblk m c 3 t
abbrev B4 (c : Dev nD) (t : Fin cfg0.N) : S64x64.Idx → EReal := iblk m c 4 t

/-! ## Each input block is its array read at the point's rows -/

theorem blk0 (c : Dev nD) (t : Fin cfg0.N) (b : Fin 2) (r : Fin 4096) (k : Fin 64) (hrow : t.val * 4096 + r.val < 1650688) :
    B0 m c t (ix3 b r k) = A0 m c (ix3 b (⟨t.val * 4096 + r.val, hrow⟩ : Fin 1650688) k) := by
  obtain ⟨e50, e51, e52, e00, e01, e02, e10, e11, e20, e21, e30, e31, e40, e41⟩ := idx_facts t
  show V m c main_v79 (((cfg0.win 0).blk t).view.emb (ix3 b r k)) = V m c main_v79 (ix3 b (⟨t.val * 4096 + r.val, hrow⟩ : Fin 1650688) k)
  refine congrArg (V m c main_v79) (funext fun a => Fin.ext ?_)
  match a with
  | ⟨0, _⟩ => show win0_0.index t (0 : Fin 3) * 2 + 1 * b.val = b.val; omega
  | ⟨1, _⟩ => show win0_0.index t (1 : Fin 3) * 4096 + 1 * r.val = t.val * 4096 + r.val; omega
  | ⟨2, _⟩ => show win0_0.index t (2 : Fin 3) * 64 + 1 * k.val = k.val; omega

theorem blk1 (c : Dev nD) (t : Fin cfg0.N) (b : Fin 2) (r : Fin 4096) (hrow : t.val * 4096 + r.val < 1650688) :
    B1 m c t (ix2 b r) = A1 m c (ix2 b (⟨t.val * 4096 + r.val, hrow⟩ : Fin 1650688)) := by
  obtain ⟨e50, e51, e52, e00, e01, e02, e10, e11, e20, e21, e30, e31, e40, e41⟩ := idx_facts t
  show V m c main_v80 (((cfg0.win 1).blk t).view.emb (ix2 b r)) = V m c main_v80 (ix2 b (⟨t.val * 4096 + r.val, hrow⟩ : Fin 1650688))
  refine congrArg (V m c main_v80) (funext fun a => Fin.ext ?_)
  match a with
  | ⟨0, _⟩ => show win0_1.index t (0 : Fin 2) * 2 + 1 * b.val = b.val; omega
  | ⟨1, _⟩ => show win0_1.index t (1 : Fin 2) * 4096 + 1 * r.val = t.val * 4096 + r.val; omega

/-- Window 2's block of ANY array of its shape: the array's row 0 at the point's columns. (Stated over an abstract
    array: the normalisation array itself is a reshaped padded array, and nothing here should look inside it.) -/
theorem read2 (t : Fin cfg0.N) (X : S1x1650688.Idx → EReal) (u : Fin 1) (r : Fin 4096) (hrow : t.val * 4096 + r.val < 1650688) :
    ((cfg0.win 2).blk t).view.read (Elt Ideal) X (ix2 u r) = X (ix2 u (⟨t.val * 4096 + r.val, hrow⟩ : Fin 1650688)) := by
  obtain ⟨e50, e51, e52, e00, e01, e02, e10, e11, e20, e21, e30, e31, e40, e41⟩ := idx_facts t
  show X (((cfg0.win 2).blk t).view.emb (ix2 u r)) = X (ix2 u (⟨t.val * 4096 + r.val, hrow⟩ : Fin 1650688))
  refine congrArg X (funext fun a => Fin.ext ?_)
  match a with
  | ⟨0, _⟩ => show win0_2.index t (0 : Fin 2) * 1 + 1 * u.val = u.val; omega
  | ⟨1, _⟩ => show win0_2.index t (1 : Fin 2) * 4096 + 1 * r.val = t.val * 4096 + r.val; omega
theorem blk2 (c : Dev nD) (t : Fin cfg0.N) (u : Fin 1) (r : Fin 4096) (hrow : t.val * 4096 + r.val < 1650688) :
    B2 m c t (ix2 u r) = A2 m c (ix2 u (⟨t.val * 4096 + r.val, hrow⟩ : Fin 1650688)) :=
  read2 t (V m c main_v82) u r hrow
theorem blk3 (c : Dev nD) (t : Fin cfg0.N) : B3 m c t = A3 m c := by
  obtain ⟨e50, e51, e52, e00, e01, e02, e10, e11, e20, e21, e30, e31, e40, e41⟩ := idx_facts t
  funext y
  show V m c main_v84 (((cfg0.win 3).blk t).view.emb y) = V m c main_v84 y
  refine congrArg (V m c main_v84) (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega
theorem blk4 (c : Dev nD) (t : Fin cfg0.N) : B4 m c t = A4 m c := by
  obtain ⟨e50, e51, e52, e00, e01, e02, e10, e11, e20, e21, e30, e31, e40, e41⟩ := idx_facts t
  funext y
  show V m c main_v86 (((cfg0.win 4).blk t).view.emb y) = V m c main_v86 y
  refine congrArg (V m c main_v86) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- Where the output's block puts its local index. -/
theorem emb5 (t : Fin cfg0.N) (b : Fin 2) (r : Fin 4096) (o : Fin 64) (hrow : t.val * 4096 + r.val < 1650688) :
    ((cfg0.win 5).blk t).view.emb (ix3 b r o) = (ix3 b (⟨t.val * 4096 + r.val, hrow⟩ : Fin 1650688) o : S2x1650688x64.Idx) := by
  obtain ⟨e50, e51, e52, -⟩ := idx_facts t
  funext a; apply Fin.ext
  match a with
  | ⟨0, _⟩ => show win0_5.index t (0 : Fin 3) * 2 + 1 * b.val = b.val; omega
  | ⟨1, _⟩ => show win0_5.index t (1 : Fin 3) * 4096 + 1 * r.val = t.val * 4096 + r.val; omega
  | ⟨2, _⟩ => show win0_5.index t (2 : Fin 3) * 64 + 1 * o.val = o.val; omega

/-- The block's message is the block of the arrays' message (pure: over the named blocks and arrays). -/
theorem msg_block (c : Dev nD) (t : Fin cfg0.N) (b : Fin 2) (r : Fin 4096) (o : Fin 64) (hrow : t.val * 4096 + r.val < 1650688) :
    EdgeMsg.msg 4096 (B0 m c t) (B1 m c t) (B2 m c t) (B3 m c t) (B4 m c t) (ix3 b r o)
      = EdgeMsg.msg 1650688 (A0 m c) (A1 m c) (A2 m c) (A3 m c) (A4 m c) (ix3 b (⟨t.val * 4096 + r.val, hrow⟩ : Fin 1650688) o) := by
  rw [EdgeMsg.msg_apply, EdgeMsg.msg_apply, blk1 m c t b r hrow, blk2 m c t 0 r hrow, blk3 m c t, blk4 m c t]
  have hx : (fun k : Fin 64 => B0 m c t (ix3 b r k)) = fun k => A0 m c (ix3 b (⟨t.val * 4096 + r.val, hrow⟩ : Fin 1650688) k) := funext fun k => blk0 m c t b r k hrow
  rw [hx]

/-- WHAT POINT `t` WRITES BACK is block `t` of the whole arrays' message. -/
theorem flushed_eq (c : Dev nD) (t : Fin cfg0.N) :
    (dats m 0 c).flushed 5 t = ((cfg0.win 5).blk t).view.read (Elt Ideal) (EdgeMsg.msg 1650688 (V m c main_v79) (V m c main_v80) (V m c main_v82) (V m c main_v84) (V m c main_v86)) := by
  show (cfg0.win 5).cut (grid0.coords t) ((dats m 0 c).after 5 t) = _
  rw [after0_5, Payload.out_eq (iblk m c 0 t) (iblk m c 1 t) (iblk m c 2 t) (iblk m c 3 t) (iblk m c 4 t)]
  have hN : t.val < 403 := lt_of_lt_of_eq t.isLt N_0
  funext j
  obtain ⟨b, r, o, rfl⟩ : ∃ (b : Fin 2) (r : Fin 4096) (o : Fin 64), j = ix3 b r o := ⟨j 0, j 1, j 2, eq_ix3 j⟩
  have hrow : t.val * 4096 + r.val < 1650688 := by have := r.isLt; omega
  show EdgeMsg.msg 4096 (B0 m c t) (B1 m c t) (B2 m c t) (B3 m c t) (B4 m c t) (ix3 b r o)
      = EdgeMsg.msg 1650688 (A0 m c) (A1 m c) (A2 m c) (A3 m c) (A4 m c) (((cfg0.win 5).blk t).view.emb (ix3 b r o))
  rw [emb5 t b r o hrow]
  exact msg_block m c t b r o hrow
/-- An index of the output array is in point `t`'s block iff each coordinate is in the block's range on its axis. -/
theorem mem_blk (t : Fin cfg0.N) (i : S2x1650688x64.Idx) :
    i ∈ ((cfg0.win 5).blk t).view.set ↔ ∀ a : Fin 3, win0_5.index t a * S2x4096x64.size a ≤ (i a).val
      ∧ (i a).val < win0_5.index t a * S2x4096x64.size a + S2x4096x64.size a := by
  show i ∈ ((View.whole main_v87).slice (win0_5.rect t)).set ↔ _
  rw [View.set_slice_whole, Rect.mem_set_unit]
  exact Iff.rfl

/-- Every index of the output array is in the block of the point that works on its row. -/
theorem cover (i : S2x1650688x64.Idx) :
    ∃ t : Fin cfg0.N, (cfg0.win 5).flush t = true ∧ i ∈ ((cfg0.win 5).blk t).view.set := by
  have hi0 : (i 0).val < 2 := (i 0).isLt
  have hi1 : (i 1).val < 1650688 := (i 1).isLt
  have hi2 : (i 2).val < 64 := (i 2).isLt
  have hN : cfg0.N = 403 := N_0
  have ht : (i 1).val / 4096 < cfg0.N := by rw [hN]; omega
  obtain ⟨e50, e51, e52, -⟩ := idx_facts ⟨(i 1).val / 4096, ht⟩
  have e51' : win0_5.index ⟨(i 1).val / 4096, ht⟩ (1 : Fin 3) = (i 1).val / 4096 := e51
  refine ⟨⟨(i 1).val / 4096, ht⟩, flush0_5 _, ?_⟩
  rw [mem_blk]
  intro a
  match a with
  | ⟨0, _⟩ => show win0_5.index ⟨(i 1).val / 4096, ht⟩ (0 : Fin 3) * 2 ≤ (i 0).val ∧ (i 0).val < win0_5.index ⟨(i 1).val / 4096, ht⟩ (0 : Fin 3) * 2 + 2; omega
  | ⟨1, _⟩ => show win0_5.index ⟨(i 1).val / 4096, ht⟩ (1 : Fin 3) * 4096 ≤ (i 1).val ∧ (i 1).val < win0_5.index ⟨(i 1).val / 4096, ht⟩ (1 : Fin 3) * 4096 + 4096; omega
  | ⟨2, _⟩ => show win0_5.index ⟨(i 1).val / 4096, ht⟩ (2 : Fin 3) * 64 ≤ (i 2).val ∧ (i 2).val < win0_5.index ⟨(i 1).val / 4096, ht⟩ (2 : Fin 3) * 64 + 64; omega

/-- THE OUTPUT ARRAY after the run: the edge message of the operand arrays as the region finds them. -/
theorem arr_eq (c : Dev nD) : (dats m 0 c).arrAt 5 cfg0.N = (EdgeMsg.msg 1650688 (V m c main_v79) (V m c main_v80) (V m c main_v82) (V m c main_v84) (V m c main_v86)) :=
  (dats m 0 c).arrAt_eq_of_cover 5 _ (fun t _ => flushed_eq m c t) cover

end Cert.KernelIdeal.Blocks

end
-- ==== Proof.LibGatherRows.lean ====
/-
  A `stablehlo.gather` that takes ROWS of a rank-3 array, read at an index.

  What `x[:, idx, :]` of an array `x : [B, N, C]` at an integer vector `idx : [E]` lowers to: offset axes `[0, 2]`, the
  collapsed slice axis `[1]`, start index map `[1]`, slice sizes `[B, 1, C]`, the start indices given as `[E, 1]` with the
  index vector on axis 1. Result element `(b, e, o)` is `x` at `(b, r, o)`, where the row `r` is the start index
  `idx[e, 0]` read as a signed integer and clamped into `[0, N − 1]`: it depends on `e` and the index array only, not on
  `b` or `o`. Stated for every extent, every index width and every element type.
-/
import Idealize.ShloMosaic.Lib.ValueIdx

noncomputable section

namespace Idealize.ShloMosaic.GatherRows

open Idealize.ShloMosaic Idealize.ShloMosaic.ValueIdx

variable {α : Type}

/-- The dimension numbers of a row gather, for an operand `[B, N, C]`, start indices `[E, 1]` and a result `[B, E, C]`;
    their conditions `wf` are decided on a program's literal shapes. -/
abbrev rowsDims (B N E C : Nat)
    (wf : GatherDims.WF ⟨3, ![B, N, C]⟩ ⟨2, ![E, 1]⟩ ⟨3, ![B, E, C]⟩ [0, 2] [1] [] [1] [] 1 ![B, 1, C]) :
    GatherDims ⟨3, ![B, N, C]⟩ ⟨2, ![E, 1]⟩ ⟨3, ![B, E, C]⟩ where
  offsetDims := [0, 2]
  collapsedSliceDims := [1]
  operandBatchingDims := []
  startIndicesBatchingDims := []
  startIndexMap := [1]
  indexVectorDim := 1
  sliceSizes := ![B, 1, C]
  wf := wf

/-- The row that gathered position `e` reads: the start index `idx[e, 0]`, signed, clamped into `[0, N − 1]`. -/
def rowOf {N E w : Nat} (hN : 0 < N) (idx : IVec ⟨2, ![E, 1]⟩ w) (e : Fin E) : Fin N :=
  ⟨min (idx (ix2 e ⟨0, Nat.one_pos⟩)).toInt.toNat (N - 1), by omega⟩

/-- THE ROW GATHER READ AT `(b, e, o)`: the operand at `(b, rowOf idx e, o)`. -/
theorem gather_rows_apply {B N E C w : Nat} (hN : 0 < N)
    (wf : GatherDims.WF ⟨3, ![B, N, C]⟩ ⟨2, ![E, 1]⟩ ⟨3, ![B, E, C]⟩ [0, 2] [1] [] [1] [] 1 ![B, 1, C])
    (x : (⟨3, ![B, N, C]⟩ : Shape).Idx → α) (idx : IVec ⟨2, ![E, 1]⟩ w) (b : Fin B) (e : Fin E) (o : Fin C) :
    Host.gather (rowsDims B N E C wf) x idx (ix3 b e o) = x (ix3 b (rowOf hN idx e) o) := by
  unfold Host.gather
  congr 1
  funext a
  refine Fin.ext ?_
  have hk0 : (0 : Fin 3) ∈ (rowsDims B N E C wf).sKept :=
    (GatherDims.mem_sKept _ _).2 ⟨(by decide : (0 : Fin 3) ∉ ([1] : List (Fin 3))), List.not_mem_nil⟩
  have hk2 : (2 : Fin 3) ∈ (rowsDims B N E C wf).sKept :=
    (GatherDims.mem_sKept _ _).2 ⟨(by decide : (2 : Fin 3) ∉ ([1] : List (Fin 3))), List.not_mem_nil⟩
  have hk1 : (1 : Fin 3) ∉ (rowsDims B N E C wf).sKept :=
    fun h => ((GatherDims.mem_sKept _ _).1 h).1 (List.mem_singleton.mpr rfl)
  match a with
  | ⟨0, _⟩ =>
    show (rowsDims B N E C wf).start (ix3 b e o) idx 0 + (rowsDims B N E C wf).batchCoord (ix3 b e o) 0
      + (rowsDims B N E C wf).offCoord (ix3 b e o) 0 = b.val
    rw [GatherDims.batchCoord_eq_zero _ _ _ List.not_mem_nil]
    unfold GatherDims.start
    rw [dif_neg (show (0 : Fin 3) ∉ ([1] : List (Fin 3)) by decide)]
    unfold GatherDims.offCoord
    rw [dif_pos hk0]
    simp only [Nat.zero_add]
    rfl
  | ⟨1, _⟩ =>
    show (rowsDims B N E C wf).start (ix3 b e o) idx 1 + (rowsDims B N E C wf).batchCoord (ix3 b e o) 1
      + (rowsDims B N E C wf).offCoord (ix3 b e o) 1 = (rowOf hN idx e).val
    rw [GatherDims.batchCoord_eq_zero _ _ _ List.not_mem_nil, GatherDims.offCoord_eq_zero _ _ _ hk1]
    simp only [Nat.add_zero]
    unfold GatherDims.start
    rw [dif_pos (show (1 : Fin 3) ∈ ([1] : List (Fin 3)) from List.mem_singleton.mpr rfl)]
    have hsi : (rowsDims B N E C wf).siIdx (ix3 b e o) ⟨List.idxOf (1 : Fin 3) (rowsDims B N E C wf).startIndexMap,
        List.idxOf_lt_length_iff.2 (List.mem_singleton.mpr rfl)⟩ = ix2 e ⟨0, Nat.one_pos⟩ := by
      funext c; refine Fin.ext ?_
      match c with
      | ⟨0, _⟩ => rfl
      | ⟨1, _⟩ => rfl
    rw [hsi]
    rfl
  | ⟨2, _⟩ =>
    show (rowsDims B N E C wf).start (ix3 b e o) idx 2 + (rowsDims B N E C wf).batchCoord (ix3 b e o) 2
      + (rowsDims B N E C wf).offCoord (ix3 b e o) 2 = o.val
    rw [GatherDims.batchCoord_eq_zero _ _ _ List.not_mem_nil]
    unfold GatherDims.start
    rw [dif_neg (show (2 : Fin 3) ∉ ([1] : List (Fin 3)) by decide)]
    unfold GatherDims.offCoord
    rw [dif_pos hk2]
    simp only [Nat.zero_add]
    rfl

end Idealize.ShloMosaic.GatherRows

end
-- ==== Proof.Bridge.lean ====
/-
  The two programs' messages are one array.

  The kernel's message array, with its operands as the host prefix wrote them, cut back to the 1650000 real rows, is
  the reference's message array of the same arguments, entry by entry. At `(b, e, o)`:
    · the kernel reads the features of the row the gather picked, `x[b, row(e), ·]`, and multiplies by the transposed
      weights, `Σ_k x[b, row(e), k] · W[o, k]`; the reference multiplies first and then picks the row,
      `(x · Wᵀ)[b, row(e), o]`: the same sum, because a row gather reads the same row `row(e)` whatever `b` and `o`;
    · the padding is never read: rows below 1650000 of a padded array are the array's own;
    · the blend weight and the normalisation are the same stages of the same arguments;
    · the kernel scales the blend by the normalisation on the right, the reference on the left: the product of
      extended reals commutes.
  No distributive law is used, so no finiteness of the inputs either.
-/
import proofs.«175122_j28492813041739_1_alg».proof.Proof.Gen.KernelIdeal
import proofs.«175122_j28492813041739_1_alg».proof.Proof.RefRead
import proofs.«175122_j28492813041739_1_alg».proof.Proof.EdgeMsg
import proofs.«175122_j28492813041739_1_alg».proof.Proof.LibGatherRows
import Idealize.ShloMosaic.Lib.ValueLayout
import Idealize.ShloMosaic.Lib.ValueIdx
import Idealize.ShloMosaic.Lib.Pipeline.Value

set_option maxRecDepth 16384

noncomputable section

open scoped BigOperators

namespace Cert.Bridge

open Idealize.ShloMosaic Idealize.ShloMosaic.ValueIdx Idealize.ShloMosaic.GatherRows
open Cert.KernelIdeal Cert.KernelIdeal.Gen
open Cert.ReferenceIdeal.ReadP

/-! ## A padded array below its padding -/

/-- An array padded at the high end only (no low padding, no interior padding) reads, at an index inside the source's
    extents, the source there. -/
theorem pad_inside {s t u : Shape} {α : Type} (lo hi interior : Fin s.rank → Nat) (x : s.Idx → α) (v : u.Idx → α)
    (h : s.Pads lo hi interior t) (hu : 0 < u.numel) (j : t.Idx) (k : s.Idx)
    (hlo : ∀ a, lo a = 0) (hint : ∀ a, interior a = 0) (hk : ∀ a : Fin s.rank, (j (a.cast h.1)).val = (k a).val) :
    pad t lo hi interior x v h hu j = x k := by
  unfold pad
  have hin : ∀ a : Fin s.rank, lo a ≤ (j (a.cast h.1)).val ∧ ((j (a.cast h.1)).val - lo a) % (interior a + 1) = 0
      ∧ ((j (a.cast h.1)).val - lo a) / (interior a + 1) < s.size a := by
    intro a
    have hka := (k a).isLt
    rw [hlo a, hint a, hk a]
    exact ⟨Nat.zero_le _, by omega, by omega⟩
  rw [dif_pos hin]
  refine congrArg x (funext fun a => Fin.ext ?_)
  show ((j (a.cast h.1)).val - lo a) / (interior a + 1) = (k a).val
  rw [hlo a, hint a, hk a]
  omega

/-! ## The operand arrays at a real row -/

section Reads
variable (x0 : (⟨Cert.ReferenceIdeal.S2x50000x64, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S2x50000, .f32⟩ : BufTy).Contents (Elt Ideal)) (x4 x5 : (⟨Cert.ReferenceIdeal.S64x64, .f32⟩ : BufTy).Contents (Elt Ideal))

/-- The row of the feature array that gathered position `e` reads: the wrapped source index, clamped. -/
abbrev row (e : Fin 1650000) : Fin 50000 := rowOf (by decide) (val_main_v82 (F := Ideal) x1) e

theorem xg_read (b : Fin 2) (e : Fin 1650000) (he : e.val < 1650688) (k : Fin 64) :
    (pad S2x1650688x64 ![0, 0, 0] ![0, 688, 0] ![0, 0, 0]
          (Host.gather gather_S2x50000x64_S1650000x1_S2x1650000x64_02_1_n_n_1_1_2164 (truncf (F := Ideal) .bf16 x0 bitsLt_bf16_f32) (val_main_v82 (F := Ideal) x1))
          (sitofp (F := Ideal) .bf16 (constantI S_ 32 0#32)) pads_S2x1650000x64_S2x1650688x64_000_06880_000 h_S_) (ix3 b (⟨e.val, he⟩ : Fin 1650688) k) = x0 (ix3 b (row x1 e) k) := by
  refine (pad_inside _ _ _ _ _ _ _ (ix3 b (⟨e.val, he⟩ : Fin 1650688) k) (ix3 b e k) (fun a => by match a with | ⟨0, _⟩ => rfl | ⟨1, _⟩ => rfl | ⟨2, _⟩ => rfl)
    (fun a => by match a with | ⟨0, _⟩ => rfl | ⟨1, _⟩ => rfl | ⟨2, _⟩ => rfl)
    (fun a => by match a with | ⟨0, _⟩ => rfl | ⟨1, _⟩ => rfl | ⟨2, _⟩ => rfl)).trans ?_
  exact gather_rows_apply (by decide) gather_S2x50000x64_S1650000x1_S2x1650000x64_02_1_n_n_1_1_2164_wf _ _ b e k

theorem fp_read (b : Fin 2) (e : Fin 1650000) (he : e.val < 1650688) :
    (pad S2x1650688 ![0, 0] ![0, 688] ![0, 0] (val_main_v70 (F := Ideal) x1 x2 x3)
          (sitofp (F := Ideal) .f32 (constantI S_ 32 0#32)) pads_S2x1650000_S2x1650688_000_06880 h_S_) (ix2 b (⟨e.val, he⟩ : Fin 1650688)) = val_main_v70 (F := Ideal) x1 x2 x3 (ix2 b e) :=
  pad_inside _ _ _ _ _ _ _ (ix2 b (⟨e.val, he⟩ : Fin 1650688)) (ix2 b e) (fun a => by match a with | ⟨0, _⟩ => rfl | ⟨1, _⟩ => rfl)
    (fun a => by match a with | ⟨0, _⟩ => rfl | ⟨1, _⟩ => rfl) (fun a => by match a with | ⟨0, _⟩ => rfl | ⟨1, _⟩ => rfl)

theorem np_read (e : Fin 1650000) (he : e.val < 1650688) :
    (shapeCast S1x1650688 (pad S1650688 ![0] ![688] ![0] (val_main_v36 (F := Ideal) x1)
          (sitofp (F := Ideal) .f32 (constantI S_ 32 0#32)) pads_S1650000_S1650688_06880 h_S_) shapeCasts_S1650688_S1x1650688) (ix2 (0 : Fin 1) (⟨e.val, he⟩ : Fin 1650688)) = val_main_v36 (F := Ideal) x1 (ix1 e) := by
  refine (shapeCast_a_1a_apply _ _ (0 : Fin 1) (⟨e.val, he⟩ : Fin 1650688)).trans ?_
  exact pad_inside _ _ _ _ _ _ _ (ix1 (⟨e.val, he⟩ : Fin 1650688)) (ix1 e) (fun a => by match a with | ⟨0, _⟩ => rfl)
    (fun a => by match a with | ⟨0, _⟩ => rfl) (fun a => by match a with | ⟨0, _⟩ => rfl)

theorem w_read (w : (⟨Cert.ReferenceIdeal.S64x64, .f32⟩ : BufTy).Contents (Elt Ideal)) (k o : Fin 64) :
    (truncf .bf16 (transpose S64x64 [1, 0] w transposes_S64x64_S64x64_1_0) bitsLt_bf16_f32 : FVec Ideal S64x64 .bf16) (ix2 k o) = w (ix2 o k) :=
  transpose_ix2_apply w transposes_S64x64_S64x64_1_0 k o

end Reads

/-! ## The reference's stages at a real row -/

section Ref
variable (x0 : (⟨Cert.ReferenceIdeal.S2x50000x64, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S2x50000, .f32⟩ : BufTy).Contents (Elt Ideal)) (x4 x5 : (⟨Cert.ReferenceIdeal.S64x64, .f32⟩ : BufTy).Contents (Elt Ideal))

theorem lidx71 (b : Fin 2) (n : Fin 50000) (o k : Fin 64) : lidx_main_v71 (ix3 b n o) k = ix3 b n k :=
  funext fun a => by match a with | ⟨0, _⟩ => rfl | ⟨1, _⟩ => rfl | ⟨2, _⟩ => rfl
theorem ridx71 (b : Fin 2) (n : Fin 50000) (o k : Fin 64) : ridx_main_v71 (ix3 b n o) k = ix2 o k :=
  funext fun a => by match a with | ⟨0, _⟩ => rfl | ⟨1, _⟩ => rfl
theorem lidx72 (b : Fin 2) (n : Fin 50000) (o k : Fin 64) : lidx_main_v72 (ix3 b n o) k = ix3 b n k :=
  funext fun a => by match a with | ⟨0, _⟩ => rfl | ⟨1, _⟩ => rfl | ⟨2, _⟩ => rfl
theorem ridx72 (b : Fin 2) (n : Fin 50000) (o k : Fin 64) : ridx_main_v72 (ix3 b n o) k = ix2 o k :=
  funext fun a => by match a with | ⟨0, _⟩ => rfl | ⟨1, _⟩ => rfl

/-- The reference's gathered concordant product: the product's row `row(e)`, a sum over the input channels. -/
theorem ref_conc (b : Fin 2) (e : Fin 1650000) (o : Fin 64) :
    val_main_v83 (F := Ideal) x0 x1 x4 (ix3 b e o) = ∑ k : Fin 64, x0 (ix3 b (row x1 e) k) * x4 (ix2 o k) := by
  unfold val_main_v83
  refine (gather_rows_apply (by decide) Cert.ReferenceIdeal.Gen.gather_S2x50000x64_S1650000x1_S2x1650000x64_02_1_n_n_1_1_2164_wf _ _ b e o).trans ?_
  rw [val_main_v71_apply]
  simp only [lidx71, ridx71]

/-- The discordant one: the same rows (its index vector is the same stage of the source indices). -/
theorem ref_disc (b : Fin 2) (e : Fin 1650000) (o : Fin 64) :
    val_main_v93 (F := Ideal) x0 x1 x5 (ix3 b e o) = ∑ k : Fin 64, x0 (ix3 b (row x1 e) k) * x5 (ix2 o k) := by
  unfold val_main_v93
  show Host.gather _ (val_main_v72 (F := Ideal) x0 x5) (val_main_v82 (F := Ideal) x1) (ix3 b e o) = _
  refine (gather_rows_apply (by decide) Cert.ReferenceIdeal.Gen.gather_S2x50000x64_S1650000x1_S2x1650000x64_02_1_n_n_1_1_2164_wf _ _ b e o).trans ?_
  rw [val_main_v72_apply]
  simp only [lidx72, ridx72]

theorem i73 (b : Fin 2) (e : Fin 1650000) (o : Fin 64) : idx_main_v73 (idx_main_v97 (ix3 b e o : Cert.ReferenceIdeal.S2x1650000x64.Idx)) = ix1 e :=
  funext fun a => by match a with | ⟨0, _⟩ => rfl
theorem i76 (b : Fin 2) (e : Fin 1650000) (o : Fin 64) : idx_main_v76 (idx_main_v84 (ix3 b e o : Cert.ReferenceIdeal.S2x1650000x64.Idx)) = ix2 b e :=
  funext fun a => by match a with | ⟨0, _⟩ => rfl | ⟨1, _⟩ => rfl
theorem i86 (b : Fin 2) (e : Fin 1650000) (o : Fin 64) : idx_main_v86 (idx_main_v94 (ix3 b e o : Cert.ReferenceIdeal.S2x1650000x64.Idx)) = ix2 b e :=
  funext fun a => by match a with | ⟨0, _⟩ => rfl | ⟨1, _⟩ => rfl

/-- The reference's message at `(b, e, o)`. -/
theorem ref_msg (b : Fin 2) (e : Fin 1650000) (o : Fin 64) :
    val_main_v98 (F := Ideal) x0 x1 x2 x3 x4 x5 (ix3 b e o)
      = val_main_v36 (F := Ideal) x1 (ix1 e)
        * ((EdgeMsg.one - val_main_v70 (F := Ideal) x1 x2 x3 (ix2 b e)) * (∑ k : Fin 64, x0 (ix3 b (row x1 e) k) * x4 (ix2 o k))
          + val_main_v70 (F := Ideal) x1 x2 x3 (ix2 b e) * (∑ k : Fin 64, x0 (ix3 b (row x1 e) k) * x5 (ix2 o k))) := by
  rw [val_main_v98_apply, val_main_v97_apply, val_main_v73_apply, i73, val_main_v96_apply, val_main_v85_apply, val_main_v95_apply,
    val_main_v84_apply, val_main_v76_apply, i76, val_main_v94_apply, val_main_v86_apply, i86, val_main_v75_apply, val_main_v74_apply,
    val_main_cst_19_apply, ref_conc, ref_disc]
  rfl

end Ref

/-! ## The bridge -/

/-- The kernel's message array, its padding rows dropped, is the reference's message array. -/
theorem slice_msg (x0 : (⟨Cert.ReferenceIdeal.S2x50000x64, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S2x50000, .f32⟩ : BufTy).Contents (Elt Ideal)) (x4 x5 : (⟨Cert.ReferenceIdeal.S64x64, .f32⟩ : BufTy).Contents (Elt Ideal)) :
    extractStridedSlice S2x1650000x64 ![0, 0, 0]
        (EdgeMsg.msg 1650688 (pad S2x1650688x64 ![0, 0, 0] ![0, 688, 0] ![0, 0, 0]
          (Host.gather gather_S2x50000x64_S1650000x1_S2x1650000x64_02_1_n_n_1_1_2164 (truncf (F := Ideal) .bf16 x0 bitsLt_bf16_f32) (val_main_v82 (F := Ideal) x1))
          (sitofp (F := Ideal) .bf16 (constantI S_ 32 0#32)) pads_S2x1650000x64_S2x1650688x64_000_06880_000 h_S_) (pad S2x1650688 ![0, 0] ![0, 688] ![0, 0] (val_main_v70 (F := Ideal) x1 x2 x3)
          (sitofp (F := Ideal) .f32 (constantI S_ 32 0#32)) pads_S2x1650000_S2x1650688_000_06880 h_S_) (shapeCast S1x1650688 (pad S1650688 ![0] ![688] ![0] (val_main_v36 (F := Ideal) x1)
          (sitofp (F := Ideal) .f32 (constantI S_ 32 0#32)) pads_S1650000_S1650688_06880 h_S_) shapeCasts_S1650688_S1x1650688) (truncf (F := Ideal) .bf16 (transpose S64x64 [1, 0] x4 transposes_S64x64_S64x64_1_0) bitsLt_bf16_f32) (truncf (F := Ideal) .bf16 (transpose S64x64 [1, 0] x5 transposes_S64x64_S64x64_1_0) bitsLt_bf16_f32))
        slices_S2x1650688x64_S2x1650000x64_0_0_0
      = val_main_v98 (F := Ideal) x0 x1 x2 x3 x4 x5 := by
  funext j
  obtain ⟨b, e, o, rfl⟩ : ∃ (b : Fin 2) (e : Fin 1650000) (o : Fin 64), j = ix3 b e o := ⟨j 0, j 1, j 2, eq_ix3 j⟩
  have he : e.val < 1650688 := by have := e.isLt; omega
  rw [ref_msg x0 x1 x2 x3 x4 x5 b e o]
  refine (slice3_axis1_apply 0 _ _ b e o (⟨e.val, he⟩ : Fin 1650688) (Nat.zero_add _).symm).trans ?_
  rw [EdgeMsg.msg_apply, fp_read x1 x2 x3 b e he, np_read x1 e he]
  have hc : (fun k : Fin 64 => (pad S2x1650688x64 ![0, 0, 0] ![0, 688, 0] ![0, 0, 0]
          (Host.gather gather_S2x50000x64_S1650000x1_S2x1650000x64_02_1_n_n_1_1_2164 (truncf (F := Ideal) .bf16 x0 bitsLt_bf16_f32) (val_main_v82 (F := Ideal) x1))
          (sitofp (F := Ideal) .bf16 (constantI S_ 32 0#32)) pads_S2x1650000x64_S2x1650688x64_000_06880_000 h_S_) (ix3 b (⟨e.val, he⟩ : Fin 1650688) k)) = fun k => x0 (ix3 b (row x1 e) k) :=
    funext fun k => xg_read x0 x1 b e he k
  rw [hc]
  unfold EdgeMsg.blend EdgeMsg.dot64
  refine Eq.trans ?_ (mul_comm _ _)
  refine congrArg (· * val_main_v36 (F := Ideal) x1 (ix1 e)) ?_
  refine congrArg₂ (fun p q => (EdgeMsg.one - val_main_v70 (F := Ideal) x1 x2 x3 (ix2 b e)) * p
      + val_main_v70 (F := Ideal) x1 x2 x3 (ix2 b e) * q) ?_ ?_
  · exact Finset.sum_congr rfl fun k _ => congrArg (x0 (ix3 b (row x1 e) k) * ·) (w_read x4 k o)
  · exact Finset.sum_congr rfl fun k _ => congrArg (x0 (ix3 b (row x1 e) k) * ·) (w_read x5 k o)

end Cert.Bridge

end
-- ==== Proof.KernelRun.lean ====
/-
  The idealized kernel's run, read: every weakly fair execution ends with the result buffer at ONE function of the
  arguments, `result`: the host tail applied to the edge message of the operand arrays the host prefix wrote,
  and with the arguments unchanged. And that function is the reference's final stage of the same arguments: the
  two programs scatter-add the same message rows (the bridge) at the same wrapped target indices into the same zero
  array and add the same bias.
-/
import proofs.«175122_j28492813041739_1_alg».proof.Proof.HostBefore
import proofs.«175122_j28492813041739_1_alg».proof.Proof.HostAfter
import proofs.«175122_j28492813041739_1_alg».proof.Proof.Blocks
import proofs.«175122_j28492813041739_1_alg».proof.Proof.Bridge

set_option maxRecDepth 16384

noncomputable section

namespace Cert.KernelIdeal.Run

open Idealize.ShloMosaic Idealize.ShloMosaic.TcCoe Idealize.SL.Sem
open Cert.KernelIdeal Cert.KernelIdeal.Gen
open Cert.ReferenceIdeal.ReadP

/-- The kernel program's result as a function of its seven arguments. -/
def result (x0 : (⟨S2x50000x64, .f32⟩ : BufTy).Contents (Elt Ideal)) (x1 : (⟨S2x1600000, .i32⟩ : BufTy).Contents (Elt Ideal)) (x2 : (⟨S1600000, .f32⟩ : BufTy).Contents (Elt Ideal)) (x3 : (⟨S2x50000, .f32⟩ : BufTy).Contents (Elt Ideal)) (x4 x5 : (⟨S64x64, .f32⟩ : BufTy).Contents (Elt Ideal)) (x6 : (⟨S64, .f32⟩ : BufTy).Contents (Elt Ideal)) : (⟨S2x50000x64, .f32⟩ : BufTy).Contents (Elt Ideal) :=
  HostAfter.tailOf (F := Ideal)
    (EdgeMsg.msg 1650688 (pad S2x1650688x64 ![0, 0, 0] ![0, 688, 0] ![0, 0, 0]
          (Host.gather gather_S2x50000x64_S1650000x1_S2x1650000x64_02_1_n_n_1_1_2164 (truncf (F := Ideal) .bf16 x0 bitsLt_bf16_f32) (val_main_v82 (F := Ideal) x1))
          (sitofp (F := Ideal) .bf16 (constantI S_ 32 0#32)) pads_S2x1650000x64_S2x1650688x64_000_06880_000 h_S_) (pad S2x1650688 ![0, 0] ![0, 688] ![0, 0] (val_main_v70 (F := Ideal) x1 x2 x3)
          (sitofp (F := Ideal) .f32 (constantI S_ 32 0#32)) pads_S2x1650000_S2x1650688_000_06880 h_S_) (shapeCast S1x1650688 (pad S1650688 ![0] ![688] ![0] (val_main_v36 (F := Ideal) x1)
          (sitofp (F := Ideal) .f32 (constantI S_ 32 0#32)) pads_S1650000_S1650688_06880 h_S_) shapeCasts_S1650688_S1x1650688) (truncf (F := Ideal) .bf16 (transpose S64x64 [1, 0] x4 transposes_S64x64_S64x64_1_0) bitsLt_bf16_f32) (truncf (F := Ideal) .bf16 (transpose S64x64 [1, 0] x5 transposes_S64x64_S64x64_1_0) bitsLt_bf16_f32))
    (val_main_v6 (F := Ideal) x1) x6

/-- It is the reference's final stage. -/
theorem result_eq (x0 : (⟨S2x50000x64, .f32⟩ : BufTy).Contents (Elt Ideal)) (x1 : (⟨S2x1600000, .i32⟩ : BufTy).Contents (Elt Ideal)) (x2 : (⟨S1600000, .f32⟩ : BufTy).Contents (Elt Ideal)) (x3 : (⟨S2x50000, .f32⟩ : BufTy).Contents (Elt Ideal)) (x4 x5 : (⟨S64x64, .f32⟩ : BufTy).Contents (Elt Ideal)) (x6 : (⟨S64, .f32⟩ : BufTy).Contents (Elt Ideal)) :
    result x0 x1 x2 x3 x4 x5 x6 = val_main_v109 (F := Ideal) x0 x1 x2 x3 x4 x5 x6 := by
  unfold result HostAfter.tailOf HostAfter.wrapCol val_main_v109 val_main_v106
  rw [Cert.Bridge.slice_msg x0 x1 x2 x3 x4 x5]
  rfl

variable (m : (ℓ : Loc nD τ sig) → Buf (Elt Ideal) ℓ) (ρ : Dev nD → PrngReg)

/-- What the result buffer holds after the host tail, in the arguments. -/
theorem tail_eq (c : Dev nD) :
    Pipeline.afterTail₀ cfgs (dats m) 0 (V0 m) [hostOps1] c main_v99
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [HostAfter.tail_v99 m c, Blocks.arr_eq m c, HostBefore.V_v6 m c, HostBefore.V_v79 m c, HostBefore.V_v80 m c,
    HostBefore.V_v82 m c, HostBefore.V_v84 m c, HostBefore.V_v86 m c]
  rfl

/-- THE RUN: the result at `result` of the arguments, the arguments unchanged. -/
theorem run : θ_run defs (onTc (τ := τ) (main (F := Ideal))) ⟨m, fun _ => 0, ρ⟩ (fun r => ∀ c : Dev nD,
      r.2.mem ((c.tc : Thread nD τ).loc main_v99) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v99 (Pipeline.mem_restRefs_of main_v99 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Run

end
-- ==== Proof.lean ====
/-
  Message passing over a graph with self loops, blended and normalised: the Pallas kernel against its jnp reference,
  equal over the extended reals.

  Both programs build, by the same host operations on the same arguments, the source and target index vectors with
  the self loops appended, the symmetric normalisation `norm[e] = d[src e] · d[tgt e]` from the degree counts, and the
  blend weight `f[b, e]`. They differ in the middle. The reference multiplies the features by each weight matrix for
  every NODE and then gathers the rows of the edges' sources; it forms
  `norm[e] · ((1 − f[b,e]) · (x Wcᵀ)[b, src e, o] + f[b,e] · (x Wdᵀ)[b, src e, o])`. The kernel gathers the source rows
  first, pads the edge axis to 403 blocks of 4096 rows, and on each block computes
  `((1 − f) · (x[src e] · Wcᵀ) + f · (x[src e] · Wdᵀ)) · norm` with the matrix unit, then drops the padding rows.
  Row by row these are one extended real: a row gather commutes with a product along the channel axis (the product's
  row `src e` is the sum over the channels of that row's entries), and the product of extended reals commutes. Both
  programs then add the message rows into their target nodes' rows and add the bias, by the same operations.
  Neither a distributive law nor a cancellation is used, so the precondition (finite inputs) is never opened.

  The frames of the two kernel programs and the reference's run are generated; `preserves` has nothing to state (the
  idealization rewrote no operation). Written by hand: what the kernel's region leaves in its output array (the block's
  message, block by block, over the whole padded arrays), the host operations before and after the region read as
  functions of the arguments over the reference's own stages, and the equality of the two message arrays.
-/
import proofs.«175122_j28492813041739_1_alg».proof.Defs
import proofs.«175122_j28492813041739_1_alg».proof.Proof.Gen.Kernel
import proofs.«175122_j28492813041739_1_alg».proof.Proof.Gen.Kernel.Skeleton
import proofs.«175122_j28492813041739_1_alg».proof.Proof.Gen.Kernel.Launch
import proofs.«175122_j28492813041739_1_alg».proof.Proof.Gen.Kernel.Points
import proofs.«175122_j28492813041739_1_alg».proof.Proof.Gen.Kernel.Frame
import proofs.«175122_j28492813041739_1_alg».proof.Proof.Gen.KernelIdeal
import proofs.«175122_j28492813041739_1_alg».proof.Proof.Gen.KernelIdeal.Skeleton
import proofs.«175122_j28492813041739_1_alg».proof.Proof.Gen.KernelIdeal.Launch
import proofs.«175122_j28492813041739_1_alg».proof.Proof.Gen.KernelIdeal.Points
import proofs.«175122_j28492813041739_1_alg».proof.Proof.Gen.KernelIdeal.Frame
import proofs.«175122_j28492813041739_1_alg».proof.Proof.Gen.ReferenceIdeal
import proofs.«175122_j28492813041739_1_alg».proof.Proof.Gen.Pre_finite_inputs
import proofs.«175122_j28492813041739_1_alg».proof.Proof.RefRun
import proofs.«175122_j28492813041739_1_alg».proof.Proof.RefRead
import proofs.«175122_j28492813041739_1_alg».proof.Proof.KernelRun
import Idealize.ShloMosaic.Adequacy
import Idealize.ShloMosaic.Init

noncomputable section

namespace Cert.Proof

open Idealize.ShloMosaic Idealize.SL.Sem

/-- The word-level kernel program runs and keeps its arguments: its generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run, with the result's conjunct dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing, so there is nothing to preserve. -/
theorem preserves : Cert.preserves_Kernel_KernelIdeal := trivial

/-- From memories that agree on the arguments the two idealized programs end with one result: the kernel's run
    names its result as a function of the arguments, the reference's run names its own, and the two functions are
    equal (`Run.result_eq`). -/
theorem algebraic : Cert.algebraic_KernelIdeal_ReferenceIdeal := by
  intro m ρ m' ρ' _ hagree
  refine ⟨fun c => Cert.KernelIdeal.Run.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v109_eq, (hagree c).1, (hagree c).2.1, (hagree c).2.2.1, (hagree c).2.2.2.1,
    (hagree c).2.2.2.2.1, (hagree c).2.2.2.2.2.1, (hagree c).2.2.2.2.2.2]
  exact (Cert.KernelIdeal.Run.result_eq _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
